-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2048 : Shape := ⟨3, ![256, 64, 2048]⟩
abbrev S256x768 : Shape := ⟨2, ![256, 768]⟩
abbrev S16x768 : Shape := ⟨2, ![16, 768]⟩
abbrev S256x64 : Shape := ⟨2, ![256, 64]⟩
abbrev S256x224x224 : Shape := ⟨3, ![256, 224, 224]⟩
abbrev S768x2048 : Shape := ⟨2, ![768, 2048]⟩
abbrev S2048 : Shape := ⟨1, ![2048]⟩
abbrev S768x768 : Shape := ⟨2, ![768, 768]⟩
abbrev S768 : Shape := ⟨1, ![768]⟩
abbrev S_ : Shape := ⟨0, ![]⟩

class Facts : Prop where
  bcast_S_S256x64x2048 : S_.BroadcastsInDim S256x64x2048 (![] : Fin 0 → Fin S256x64x2048.rank)
  reducesTo_S256x64x2048_S_d0_1_2 : S256x64x2048.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S16x768 : S_.BroadcastsInDim S16x768 (![] : Fin 0 → Fin S16x768.rank)
  reducesTo_S16x768_S_d0_1 : S16x768.ReducesTo [0, 1] S_
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  reducesTo_S_S_d : S_.ReducesTo [] S_
  bcast_S_S256x64 : S_.BroadcastsInDim S256x64 (![] : Fin 0 → Fin S256x64.rank)
  reducesTo_S256x64_S_d0_1 : S256x64.ReducesTo [0, 1] S_
  bcast_S_S256x224x224 : S_.BroadcastsInDim S256x224x224 (![] : Fin 0 → Fin S256x224x224.rank)
  reducesTo_S256x224x224_S_d0_1_2 : S256x224x224.ReducesTo [0, 1, 2] S_

variable [Facts]

def fn_part2 {F : FTy → Type} [FloatOps F] (main_arg3 : IVec S256x64 32) (main_arg4 : IVec S256x224x224 32) (main_arg9 : FVec F S_ .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_c_14 : IVec S_ 32 := constantI S_ 32 16#32
  let main_v38 : IVec S256x64 32 := broadcastInDim S256x64 ![] bcast_S_S256x64 main_c_14
  let main_v39 : IVec S256x64 1 := cmpi .sle main_arg3 main_v38
  let main_c_15 : IVec S_ 1 := constantI S_ 1 1#1
  let main_v40 : IVec S_ 1 := (fun x v => Host.reduce IntOp.andi x v reducesTo_S256x64_S_d0_1 h_S_) main_v39 main_c_15
  let main_v41 : IVec S_ 1 := andi main_v37 main_v40
  let main_c_16 : IVec S_ 32 := constantI S_ 32 0#32
  let main_v42 : IVec S256x224x224 32 := broadcastInDim S256x224x224 ![] bcast_S_S256x224x224 main_c_16
  let main_v43 : IVec S256x224x224 1 := cmpi .sge main_arg4 main_v42
  let main_c_17 : IVec S_ 1 := constantI S_ 1 1#1
  let main_v44 : IVec S_ 1 := (fun x v => Host.reduce IntOp.andi x v reducesTo_S256x224x224_S_d0_1_2 h_S_) main_v43 main_c_17
  let main_v45 : IVec S_ 1 := andi main_v41 main_v44
  let main_c_18 : IVec S_ 32 := constantI S_ 32 16#32
  let main_v46 : IVec S256x224x224 32 := broadcastInDim S256x224x224 ![] bcast_S_S256x224x224 main_c_18
  let main_v47 : IVec S256x224x224 1 := cmpi .sle main_arg4 main_v46
  let main_c_19 : IVec S_ 1 := constantI S_ 1 1#1
  let main_v48 : IVec S_ 1 := (fun x v => Host.reduce IntOp.andi x v reducesTo_S256x224x224_S_d0_1_2 h_S_) main_v47 main_c_19
  let main_v49 : IVec S_ 1 := andi main_v45 main_v48
  main_v49

def fn_part1 {F : FTy → Type} [FloatOps F] (main_arg3 : IVec S256x64 32) (main_arg4 : IVec S256x224x224 32) (main_arg6 : FVec F S2048 .f32) (main_arg7 : FVec F S768x768 .f32) (main_arg8 : FVec F S768 .f32) (main_arg9 : FVec F S_ .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S768x768 .f32 := Host.absf main_arg7
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg8
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg3 main_arg4 main_arg9 main_v33

def fn {F : FTy → Type} [FloatOps F] (main_arg0 : FVec F S256x64x2048 .f32) (main_arg1 : FVec F S256x768 .f32) (main_arg2 : FVec F S16x768 .f32) (main_arg3 : IVec S256x64 32) (main_arg4 : IVec S256x224x224 32) (main_arg5 : FVec F S768x2048 .f32) (main_arg6 : FVec F S2048 .f32) (main_arg7 : FVec F S768x768 .f32) (main_arg8 : FVec F S768 .f32) (main_arg9 : FVec F S_ .f32) : IVec S_ 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_c : IVec S_ 1 := constantI S_ 1 1#1
  let main_v3 : IVec S_ 1 := (fun x v => Host.reduce IntOp.andi x v reducesTo_S256x64x2048_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S16x768 .f32 := Host.absf main_arg2
  let main_cst_2 : FVec F S_ .f32 := constant S_ .f32 0x7F800000#32
  let main_v10 : FVec F S16x768 .f32 := broadcastInDim S16x768 ![] bcast_S_S16x768 main_cst_2
  let main_v11 : IVec S16x768 1 := cmpf .olt main_v9 main_v10
  let main_c_3 : IVec S_ 1 := constantI S_ 1 1#1
  let main_v12 : IVec S_ 1 := (fun x v => Host.reduce IntOp.andi x v reducesTo_S16x768_S_d0_1 h_S_) main_v11 main_c_3
  let main_v13 : IVec S_ 1 := andi main_v8 main_v12
  let main_v14 : FVec F S768x2048 .f32 := Host.absf main_arg5
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg3 main_arg4 main_arg6 main_arg7 main_arg8 main_arg9 main_v13 main_v16
-- ==== Kernel.lean ====
abbrev S256x64x2048 : Shape := ⟨3, ![256, 64, 2048]⟩
abbrev S256x768 : Shape := ⟨2, ![256, 768]⟩
abbrev S16x768 : Shape := ⟨2, ![16, 768]⟩
abbrev S256x64 : Shape := ⟨2, ![256, 64]⟩
abbrev S256x224x224 : Shape := ⟨3, ![256, 224, 224]⟩
abbrev S768x2048 : Shape := ⟨2, ![768, 2048]⟩
abbrev S2048 : Shape := ⟨1, ![2048]⟩
abbrev S768x768 : Shape := ⟨2, ![768, 768]⟩
abbrev S768 : Shape := ⟨1, ![768]⟩
abbrev S_ : Shape := ⟨0, ![]⟩
abbrev S16x2048 : Shape := ⟨2, ![16, 2048]⟩
abbrev S1x2048 : Shape := ⟨2, ![1, 2048]⟩
abbrev S1x768 : Shape := ⟨2, ![1, 768]⟩
abbrev S1x1 : Shape := ⟨2, ![1, 1]⟩
abbrev S8x64 : Shape := ⟨2, ![8, 64]⟩
abbrev S8x64x2048 : Shape := ⟨3, ![8, 64, 2048]⟩
abbrev S8x64x16 : Shape := ⟨3, ![8, 64, 16]⟩
abbrev S8x64x1 : Shape := ⟨3, ![8, 64, 1]⟩
abbrev S512x16 : Shape := ⟨2, ![512, 16]⟩
abbrev S512x2048 : Shape := ⟨2, ![512, 2048]⟩
abbrev S256x50176 : Shape := ⟨2, ![256, 50176]⟩
abbrev S32x50176 : Shape := ⟨2, ![32, 50176]⟩
abbrev S32x768 : Shape := ⟨2, ![32, 768]⟩
abbrev S32x1 : Shape := ⟨2, ![32, 1]⟩
abbrev S32 : Shape := ⟨1, ![32]⟩

abbrev nBuf : Space → Nat
  | .hbm => 23
  | .vmem => 16
  | .smem => 0
  | _ => 0

abbrev bufTy : (tb : Table) → Fin (tcTables nBuf tb) → BufTy
  | .hbm, ⟨0, _⟩ => ⟨S256x64x2048, .f32⟩
  | .hbm, ⟨1, _⟩ => ⟨S256x768, .f32⟩
  | .hbm, ⟨2, _⟩ => ⟨S16x768, .f32⟩
  | .hbm, ⟨3, _⟩ => ⟨S256x64, .i32⟩
  | .hbm, ⟨4, _⟩ => ⟨S256x224x224, .i32⟩
  | .hbm, ⟨5, _⟩ => ⟨S768x2048, .f32⟩
  | .hbm, ⟨6, _⟩ => ⟨S2048, .f32⟩
  | .hbm, ⟨7, _⟩ => ⟨S768x768, .f32⟩
  | .hbm, ⟨8, _⟩ => ⟨S768, .f32⟩
  | .hbm, ⟨9, _⟩ => ⟨S_, .f32⟩
  | .hbm, ⟨10, _⟩ => ⟨S16x2048, .f32⟩
  | .hbm, ⟨11, _⟩ => ⟨S1x2048, .f32⟩
  | .hbm, ⟨12, _⟩ => ⟨S16x2048, .f32⟩
  | .hbm, ⟨13, _⟩ => ⟨S16x2048, .f32⟩
  | .hbm, ⟨14, _⟩ => ⟨S16x768, .f32⟩
  | .hbm, ⟨15, _⟩ => ⟨S1x768, .f32⟩
  | .hbm, ⟨16, _⟩ => ⟨S16x768, .f32⟩
  | .hbm, ⟨17, _⟩ => ⟨S16x768, .f32⟩
  | .hbm, ⟨18, _⟩ => ⟨S1x1, .f32⟩
  | .hbm, ⟨19, _⟩ => ⟨S256x64x2048, .f32⟩
  | .hbm, ⟨20, _⟩ => ⟨S1x1, .f32⟩
  | .hbm, ⟨21, _⟩ => ⟨S256x50176, .i32⟩
  | .hbm, ⟨22, _⟩ => ⟨S256x768, .f32⟩
  | .local _ .vmem, ⟨0, _⟩ => ⟨S1x1, .f32⟩
  | .local _ .vmem, ⟨1, _⟩ => ⟨S16x2048, .f32⟩
  | .local _ .vmem, ⟨2, _⟩ => ⟨S8x64, .i32⟩
  | .local _ .vmem, ⟨3, _⟩ => ⟨S8x64, .i32⟩
  | .local _ .vmem, ⟨4, _⟩ => ⟨S8x64x2048, .f32⟩
  | .local _ .vmem, ⟨5, _⟩ => ⟨S8x64x2048, .f32⟩
  | .local _ .vmem, ⟨6, _⟩ => ⟨S8x64x2048, .f32⟩
  | .local _ .vmem, ⟨7, _⟩ => ⟨S8x64x2048, .f32⟩
  | .local _ .vmem, ⟨8, _⟩ => ⟨S1x1, .f32⟩
  | .local _ .vmem, ⟨9, _⟩ => ⟨S16x768, .f32⟩
  | .local _ .vmem, ⟨10, _⟩ => ⟨S32x50176, .i32⟩
  | .local _ .vmem, ⟨11, _⟩ => ⟨S32x50176, .i32⟩
  | .local _ .vmem, ⟨12, _⟩ => ⟨S32x768, .f32⟩
  | .local _ .vmem, ⟨13, _⟩ => ⟨S32x768, .f32⟩
  | .local _ .vmem, ⟨14, _⟩ => ⟨S32x768, .f32⟩
  | .local _ .vmem, ⟨15, _⟩ => ⟨S32x768, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let v24 : Index := Scalar.indexCast arg6
  let c0_12 : Index := 0#32
  ![v24.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x50176 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8x64_S8x64_0_0 : ∀ a, (![0, 0] : Fin 2 → Nat) a + S8x64.size a ≤ S8x64.size a
  h_S8x64 : 0 < S8x64.numel
  iota_S8x64x16_d2_w32 : S8x64x16.Iotas .tc 32 [2]
  shapeCasts_S8x64_S8x64x1 : S8x64.ShapeCasts S8x64x1
  broadcasts_S8x64x1_S8x64x16 : S8x64x1.Broadcasts S8x64x16
  natLt_1_32 : 1 < 32
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  shapeCasts_S8x64x16_S512x16 : S8x64x16.ShapeCasts S512x16
  shapeCasts_S512x2048_S8x64x2048 : S512x2048.ShapeCasts S8x64x2048
  inb_S8x64x2048_S8x64x2048_0_0_0 : ∀ a, (![0, 0, 0] : Fin 3 → Nat) a + S8x64x2048.size a ≤ S8x64x2048.size a
  h_S8x64x2048 : 0 < S8x64x2048.numel
  shapeCasts_S256x224x224_S256x50176 : S256x224x224.ShapeCasts S256x50176
  inb_S32x50176_S32x50176_0_0 : ∀ a, (![0, 0] : Fin 2 → Nat) a + S32x50176.size a ≤ S32x50176.size a
  h_S32x50176 : 0 < S32x50176.numel
  shapeCasts_S32x50176_S32x50176 : S32x50176.ShapeCasts S32x50176
  reduces_S32x50176_S32 : S32x50176.Reduces [1] S32
  shapeCasts_S32_S32x1 : S32.ShapeCasts S32x1
  h_S1x768 : 0 < S1x768.numel
  shapeCasts_S1x768_S768 : S1x768.ShapeCasts S768
  shapeCasts_S768_S1x768 : S768.ShapeCasts S1x768
  broadcasts_S32x1_S32x768 : S32x1.Broadcasts S32x768
  broadcasts_S1x768_S32x768 : S1x768.Broadcasts S32x768
  inb_S32x768_S32x768_0_0 : ∀ a, (![0, 0] : Fin 2 → Nat) a + S32x768.size a ≤ S32x768.size a
  h_S32x768 : 0 < S32x768.numel
  dot_S16x768_S768x2048_S16x2048_1_0_0_1_n_n_wf : DotDims.WF S16x768 S768x2048 S16x2048 [1] [0] [0] [1] [] []
  dot_S16x768_S768x768_S16x768_1_0_0_1_n_n_wf : DotDims.WF S16x768 S768x768 S16x768 [1] [0] [0] [1] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S256x64.size a
  hwx0_2 : ∀ i : grid0.Coords, EltTy.bits .i32 = 32 ∨ (Rect.block (s := S256x64) S8x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x2048.size a ≤ S256x64x2048.size a
  hwx0_3 : ∀ i : grid0.Coords, EltTy.bits .f32 = 32 ∨ (Rect.block (s := S256x64x2048) S8x64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64x2048.size a ≤ S256x64x2048.size a
  hwx0_4 : ∀ i : grid0.Coords, EltTy.bits .f32 = 32 ∨ (Rect.block (s := S256x64x2048) S8x64x2048.size (cc0_transform_4 i) (hinb0_4 i)).WholeWords (EltTy.packing .f32)
  hrank1 : 0 < grid1.rank
  k1_t1_ok : k1_t1_loop.OK
  k1_off1_inb : ∀ k1_t1 : Fin k1_t1_loop.trips, ∀ a, (k1_off1 k1_t1) a + S1x768.size a ≤ S16x768.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x768.size a ≤ S16x768.size a
  hwx1_1 : ∀ i : grid1.Coords, EltTy.bits .f32 = 32 ∨ (Rect.block (s := S16x768) S16x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x50176.size a ≤ S256x50176.size a
  hwx1_2 : ∀ i : grid1.Coords, EltTy.bits .i32 = 32 ∨ (Rect.block (s := S256x50176) S32x50176.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x768.size a ≤ S256x768.size a
  hwx1_3 : ∀ i : grid1.Coords, EltTy.bits .f32 = 32 ∨ (Rect.block (s := S256x768) S32x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x768.size a ≤ S256x768.size a
  hwx1_4 : ∀ i : grid1.Coords, EltTy.bits .f32 = 32 ∨ (Rect.block (s := S256x768) S32x768.size (cc1_transform_4 i) (hinb1_4 i)).WholeWords (EltTy.packing .f32)

variable [Facts₀]

def dot_S16x768_S768x2048_S16x2048_1_0_0_1_n_n : DotDims S16x768 S768x2048 S16x2048 where
  lhsContracting := [1]
  rhsContracting := [0]
  lhsNonContracting := [0]
  rhsNonContracting := [1]
  lhsBatch := []
  rhsBatch := []
  wf := dot_S16x768_S768x2048_S16x2048_1_0_0_1_n_n_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_v8) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8x64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S16x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S32x50176.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S32x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x64x2048 : Shape := ⟨3, ![256, 64, 2048]⟩
abbrev S256x768 : Shape := ⟨2, ![256, 768]⟩
abbrev S16x768 : Shape := ⟨2, ![16, 768]⟩
abbrev S256x64 : Shape := ⟨2, ![256, 64]⟩
abbrev S256x224x224 : Shape := ⟨3, ![256, 224, 224]⟩
abbrev S768x2048 : Shape := ⟨2, ![768, 2048]⟩
abbrev S2048 : Shape := ⟨1, ![2048]⟩
abbrev S768x768 : Shape := ⟨2, ![768, 768]⟩
abbrev S768 : Shape := ⟨1, ![768]⟩
abbrev S_ : Shape := ⟨0, ![]⟩
abbrev S16x2048 : Shape := ⟨2, ![16, 2048]⟩
abbrev S1x2048 : Shape := ⟨2, ![1, 2048]⟩
abbrev S256x64x1 : Shape := ⟨3, ![256, 64, 1]⟩
abbrev S256x50176 : Shape := ⟨2, ![256, 50176]⟩
abbrev S256 : Shape := ⟨1, ![256]⟩
abbrev S256x1 : Shape := ⟨2, ![256, 1]⟩
abbrev S12845056 : Shape := ⟨1, ![12845056]⟩
abbrev S4352 : Shape := ⟨1, ![4352]⟩
abbrev S12845056x1 : Shape := ⟨2, ![12845056, 1]⟩
abbrev S256x17 : Shape := ⟨2, ![256, 17]⟩
abbrev S256x16 : Shape := ⟨2, ![256, 16]⟩
abbrev S1x768 : Shape := ⟨2, ![1, 768]⟩

abbrev nBuf : Space → Nat
  | .hbm => 75
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x768, .f32⟩
  | .hbm, ⟨2, _⟩ => ⟨S16x768, .f32⟩
  | .hbm, ⟨3, _⟩ => ⟨S256x64, .i32⟩
  | .hbm, ⟨4, _⟩ => ⟨S256x224x224, .i32⟩
  | .hbm, ⟨5, _⟩ => ⟨S768x2048, .f32⟩
  | .hbm, ⟨6, _⟩ => ⟨S2048, .f32⟩
  | .hbm, ⟨7, _⟩ => ⟨S768x768, .f32⟩
  | .hbm, ⟨8, _⟩ => ⟨S768, .f32⟩
  | .hbm, ⟨9, _⟩ => ⟨S_, .f32⟩
  | .hbm, ⟨10, _⟩ => ⟨S16x2048, .f32⟩
  | .hbm, ⟨11, _⟩ => ⟨S1x2048, .f32⟩
  | .hbm, ⟨12, _⟩ => ⟨S16x2048, .f32⟩
  | .hbm, ⟨13, _⟩ => ⟨S16x2048, .f32⟩
  | .hbm, ⟨14, _⟩ => ⟨S_, .i32⟩
  | .hbm, ⟨15, _⟩ => ⟨S256x64, .i32⟩
  | .hbm, ⟨16, _⟩ => ⟨S256x64, .i1⟩
  | .hbm, ⟨17, _⟩ => ⟨S_, .i32⟩
  | .hbm, ⟨18, _⟩ => ⟨S256x64, .i32⟩
  | .hbm, ⟨19, _⟩ => ⟨S256x64, .i32⟩
  | .hbm, ⟨20, _⟩ => ⟨S_, .i32⟩
  | .hbm, ⟨21, _⟩ => ⟨S_, .i32⟩
  | .hbm, ⟨22, _⟩ => ⟨S256x64, .i32⟩
  | .hbm, ⟨23, _⟩ => ⟨S256x64, .i32⟩
  | .hbm, ⟨24, _⟩ => ⟨S256x64x1, .i1⟩
  | .hbm, ⟨25, _⟩ => ⟨S_, .i32⟩
  | .hbm, ⟨26, _⟩ => ⟨S256x64, .i32⟩
  | .hbm, ⟨27, _⟩ => ⟨S256x64, .i1⟩
  | .hbm, ⟨28, _⟩ => ⟨S_, .i32⟩
  | .hbm, ⟨29, _⟩ => ⟨S256x64, .i32⟩
  | .hbm, ⟨30, _⟩ => ⟨S256x64, .i32⟩
  | .hbm, ⟨31, _⟩ => ⟨S256x64, .i32⟩
  | .hbm, ⟨32, _⟩ => ⟨S256x64x1, .i32⟩
  | .hbm, ⟨33, _⟩ => ⟨S256x64x2048, .f32⟩
  | .hbm, ⟨34, _⟩ => ⟨S_, .f32⟩
  | .hbm, ⟨35, _⟩ => ⟨S_, .f32⟩
  | .hbm, ⟨36, _⟩ => ⟨S256x64x2048, .i1⟩
  | .hbm, ⟨37, _⟩ => ⟨S256x64x2048, .f32⟩
  | .hbm, ⟨38, _⟩ => ⟨S256x64x2048, .f32⟩
  | .hbm, ⟨39, _⟩ => ⟨S256x64x2048, .f32⟩
  | .hbm, ⟨40, _⟩ => ⟨S256x64x2048, .f32⟩
  | .hbm, ⟨41, _⟩ => ⟨S256x64x2048, .f32⟩
  | .hbm, ⟨42, _⟩ => ⟨S256x50176, .i32⟩
  | .hbm, ⟨43, _⟩ => ⟨S256, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x50176, .i32⟩
  | .hbm, ⟨49, _⟩ => ⟨S256x50176, .i32⟩
  | .hbm, ⟨50, _⟩ => ⟨S12845056, .i32⟩
  | .hbm, ⟨51, _⟩ => ⟨S_, .f32⟩
  | .hbm, ⟨52, _⟩ => ⟨S12845056, .f32⟩
  | .hbm, ⟨53, _⟩ => ⟨S_, .f32⟩
  | .hbm, ⟨54, _⟩ => ⟨S4352, .f32⟩
  | .hbm, ⟨55, _⟩ => ⟨S12845056x1, .i32⟩
  | .hbm, ⟨56, _⟩ => ⟨S4352, .f32⟩
  | .hbm, ⟨57, _⟩ => ⟨S256x17, .f32⟩
  | .hbm, ⟨58, _⟩ => ⟨S256x16, .f32⟩
  | .hbm, ⟨59, _⟩ => ⟨S16x768, .f32⟩
  | .hbm, ⟨60, _⟩ => ⟨S1x768, .f32⟩
  | .hbm, ⟨61, _⟩ => ⟨S16x768, .f32⟩
  | .hbm, ⟨62, _⟩ => ⟨S16x768, .f32⟩
  | .hbm, ⟨63, _⟩ => ⟨S256x768, .f32⟩
  | .hbm, ⟨64, _⟩ => ⟨S_, .f32⟩
  | .hbm, ⟨65, _⟩ => ⟨S256, .f32⟩
  | .hbm, ⟨66, _⟩ => ⟨S256x1, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S256x768, .f32⟩
  | .hbm, ⟨71, _⟩ => ⟨S256x768, .f32⟩
  | .hbm, ⟨72, _⟩ => ⟨S256x768, .f32⟩
  | .hbm, ⟨73, _⟩ => ⟨S256x768, .f32⟩
  | .hbm, ⟨74, _⟩ => ⟨S256x768, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64x1_S256x64x2048_0_1_2 : S256x64x1.BroadcastsInDim S256x64x2048 (![0, 1, 2] : Fin 3 → Fin S256x64x2048.rank)
  bcast_S_S256x64x2048 : S_.BroadcastsInDim S256x64x2048 (![] : Fin 0 → Fin S256x64x2048.rank)
  shapeCasts_S256x224x224_S256x50176 : S256x224x224.ShapeCasts S256x50176
  bcast_S256_S256x1_0 : S256.BroadcastsInDim S256x1 (![0] : Fin 1 → Fin S256x1.rank)
  bcast_S_S256x1 : S_.BroadcastsInDim S256x1 (![] : Fin 0 → Fin S256x1.rank)
  bcast_S256x1_S256x50176_0_1 : S256x1.BroadcastsInDim S256x50176 (![0, 1] : Fin 2 → Fin S256x50176.rank)
  shapeCasts_S256x50176_S12845056 : S256x50176.ShapeCasts S12845056
  bcast_S_S12845056 : S_.BroadcastsInDim S12845056 (![] : Fin 0 → Fin S12845056.rank)
  bcast_S_S4352 : S_.BroadcastsInDim S4352 (![] : Fin 0 → Fin S4352.rank)
  bcast_S12845056_S12845056x1_0 : S12845056.BroadcastsInDim S12845056x1 (![0] : Fin 1 → Fin S12845056x1.rank)
  shapeCasts_S4352_S256x17 : S4352.ShapeCasts S256x17
  slices_S256x17_S256x16_0_1 : S256x17.Slices ![0, 1] S256x16
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  reducesTo_S256x16_S256_d1 : S256x16.ReducesTo [1] S256
  h_S_ : 0 < S_.numel
  bcast_S_S256x768 : S_.BroadcastsInDim S256x768 (![] : Fin 0 → Fin S256x768.rank)
  bcast_S256x1_S256x768_0_1 : S256x1.BroadcastsInDim S256x768 (![0, 1] : Fin 2 → Fin S256x768.rank)
  dot_S16x768_S768x2048_S16x2048_1_0_0_1_n_n_wf : DotDims.WF S16x768 S768x2048 S16x2048 [1] [0] [0] [1] [] []
  gather_S16x2048_S256x64x1_S256x64x2048_2_0_n_n_0_2_12048_wf : GatherDims.WF S16x2048 S256x64x1 S256x64x2048 [2] [0] [] [0] [] 2 ![1, 2048]
  scatter_S4352_S12845056x1_S12845056_n_0_0_1_wf : ScatterDims.WF S4352 S12845056x1 S12845056 [] [0] [0] 1
  dot_S16x768_S768x768_S16x768_1_0_0_1_n_n_wf : DotDims.WF S16x768 S768x768 S16x768 [1] [0] [0] [1] [] []
  dot_S256x16_S16x768_S256x768_1_0_0_1_n_n_wf : DotDims.WF S256x16 S16x768 S256x768 [1] [0] [0] [1] [] []

variable [Facts₀]

def dot_S16x768_S768x2048_S16x2048_1_0_0_1_n_n : DotDims S16x768 S768x2048 S16x2048 where
  lhsContracting := [1]
  rhsContracting := [0]
  lhsNonContracting := [0]
  rhsNonContracting := [1]
  lhsBatch := []
  rhsBatch := []
  wf := dot_S16x768_S768x2048_S16x2048_1_0_0_1_n_n_wf
def gather_S16x2048_S256x64x1_S256x64x2048_2_0_n_n_0_2_12048 : GatherDims S16x2048 S256x64x1 S256x64x2048 where
  offsetDims := [2]
  collapsedSliceDims := [0]
  operandBatchingDims := []
  startIndicesBatchingDims := []
  startIndexMap := [0]
  indexVectorDim := 2
  sliceSizes := ![1, 2048]
  wf := gather_S16x2048_S256x64x1_S256x64x2048_2_0_n_n_0_2_12048_wf
def scatter_S4352_S12845056x1_S12845056_n_0_0_1 : ScatterDims S4352 S12845056x1 S12845056 where
  updateWindowDims := []
  insertedWindowDims := [0]
  scatterDimsToOperandDims := [0]
  indexVectorDim := 1
  wf := scatter_S4352_S12845056x1_S12845056_n_0_0_1_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf
def dot_S256x16_S16x768_S256x768_1_0_0_1_n_n : DotDims S256x16 S16x768 S256x768 where
  lhsContracting := [1]
  rhsContracting := [0]
  lhsNonContracting := [0]
  rhsNonContracting := [1]
  lhsBatch := []
  rhsBatch := []
  wf := dot_S256x16_S16x768_S256x768_1_0_0_1_n_n_wf

class Facts : Prop extends Facts₀ where

variable [Facts]
-- ==== Proof.Spec.lean ====
/-
  THE TWO RESULTS AS FUNCTIONS OF THE ARGUMENT ARRAYS, entry by entry, over the extended reals.

  Object marks. An entity id `e` in 1..16 selects row `e - 1` of a 16-row table `proj`; any other id selects nothing.
  Written without a dependent row index: the sum over the sixteen rows `k` of (1 if the word `e - 1` is `k`, else 0)
  times the row's entry. The result at (t, o, d) is `feat(t,o,d) + g * (that sum for e = ent(t,o))`.

  Frame marks. `cnt mk t k` is the number of pixels `p` of row `t` whose label `mk(t,p)` is `k + 1` (a sum of ones).
  The result at (t, d) is `fr(t,d) + (g * Σ_k cnt(t,k) * proj(k,d)) / (ω + Σ_k cnt(t,k))`, `ω` the value of the f32
  word 0x358637BD and the quotient the extended reals' (`Ideal.div`).

  `EntOk` / `MaskOk`: the label ranges (ids at most 16; pixel labels in 0..16), as signed readings of the words.
-/
import Idealize.ShloMosaic.PureOps.Ideal
import Idealize.ShloMosaic.Lib.ValueIdx

noncomputable section

namespace Cert.Spec

open Idealize.ShloMosaic Idealize.ShloMosaic.ValueIdx
open scoped BigOperators

/-- 1 when the 32-bit word `v` is the number `n`, else 0. -/
def hit (v : BitVec 32) (n : Nat) : EReal := if v = BitVec.ofNat 32 n then 1 else 0

/-- The object result at (t, o, d). -/
def objAt (feat : FVec Ideal ⟨3, ![256, 64, 2048]⟩ .f32) (proj : FVec Ideal ⟨2, ![16, 2048]⟩ .f32)
    (ent : IVec ⟨2, ![256, 64]⟩ 32) (g : EReal) (t : Fin 256) (o : Fin 64) (d : Fin 2048) : EReal :=
  feat (ix3 t o d) + g * ∑ k : Fin 16, hit (ent (ix2 t o) - 1#32) k.val * proj (ix2 k d)

/-- The object result, whole. -/
def objOut (feat : FVec Ideal ⟨3, ![256, 64, 2048]⟩ .f32) (proj : FVec Ideal ⟨2, ![16, 2048]⟩ .f32)
    (ent : IVec ⟨2, ![256, 64]⟩ 32) (g : EReal) : FVec Ideal ⟨3, ![256, 64, 2048]⟩ .f32 :=
  fun i => objAt feat proj ent g ⟨(i 0).val, (i 0).isLt⟩ ⟨(i 1).val, (i 1).isLt⟩ ⟨(i 2).val, (i 2).isLt⟩

theorem objOut_ix3 (feat : FVec Ideal ⟨3, ![256, 64, 2048]⟩ .f32) (proj : FVec Ideal ⟨2, ![16, 2048]⟩ .f32)
    (ent : IVec ⟨2, ![256, 64]⟩ 32) (g : EReal) (t : Fin 256) (o : Fin 64) (d : Fin 2048) :
    objOut feat proj ent g (ix3 t o d) = objAt feat proj ent g t o d := rfl

/-- How many pixels of row `t` carry the label `k + 1`. -/
def cnt (mk : IVec ⟨2, ![256, 50176]⟩ 32) (t : Fin 256) (k : Fin 16) : EReal :=
  ∑ p : Fin 50176, hit (mk (ix2 t p)) (k.val + 1)

/-- The weight's offset: the value of the f32 word 0x358637BD (about 1e-6). -/
def omega : EReal := Ideal.ofBits .f32 0x358637BD#32

/-- The frame result at (t, d). -/
def frameAt (fr : FVec Ideal ⟨2, ![256, 768]⟩ .f32) (proj : FVec Ideal ⟨2, ![16, 768]⟩ .f32)
    (mk : IVec ⟨2, ![256, 50176]⟩ 32) (g : EReal) (t : Fin 256) (d : Fin 768) : EReal :=
  fr (ix2 t d) + Ideal.div (g * ∑ k : Fin 16, cnt mk t k * proj (ix2 k d)) (omega + ∑ k : Fin 16, cnt mk t k)

/-- The frame result, whole. -/
def frameOut (fr : FVec Ideal ⟨2, ![256, 768]⟩ .f32) (proj : FVec Ideal ⟨2, ![16, 768]⟩ .f32)
    (mk : IVec ⟨2, ![256, 50176]⟩ 32) (g : EReal) : FVec Ideal ⟨2, ![256, 768]⟩ .f32 :=
  fun i => frameAt fr proj mk g ⟨(i 0).val, (i 0).isLt⟩ ⟨(i 1).val, (i 1).isLt⟩

theorem frameOut_ix2 (fr : FVec Ideal ⟨2, ![256, 768]⟩ .f32) (proj : FVec Ideal ⟨2, ![16, 768]⟩ .f32)
    (mk : IVec ⟨2, ![256, 50176]⟩ 32) (g : EReal) (t : Fin 256) (d : Fin 768) :
    frameOut fr proj mk g (ix2 t d) = frameAt fr proj mk g t d := rfl

/-- Entity ids are at most 16 (read signed). -/
def EntOk (ent : IVec ⟨2, ![256, 64]⟩ 32) : Prop := ∀ i, (ent i).toInt ≤ 16

/-- Pixel labels lie in 0..16 (read signed). -/
def MaskOk (mk : IVec ⟨2, ![256, 50176]⟩ 32) : Prop := ∀ i, 0 ≤ (mk i).toInt ∧ (mk i).toInt ≤ 16

end Cert.Spec

end
-- ==== Proof.PreRange.lean ====
/-
  THE LABEL RANGES OUT OF THE PRECONDITION. The printed precondition is a conjunction (a chain of `and`s of `jnp.all`s);
  its last three conjuncts say: every entity id is at most 16, every pixel label is at least 0, every pixel label is at
  most 16 (signed comparisons). Read at the exact instance.
-/
import proofs.«422021_j38525856645138_3_alg».proof.Pre_finite_inputs
import Idealize.ShloMosaic.Lib.ReduceAll
import Idealize.ShloMosaic.Lib.StableHlo.Predicate
import Idealize.ShloMosaic.Lib.ValueIdx
import Idealize.ShloMosaic.PureOps.Ideal

set_option maxRecDepth 16384

noncomputable section

namespace Cert.Pre_finite_inputs.Range

open Cert.Pre_finite_inputs Idealize.ShloMosaic Idealize.ShloMosaic.ValueIdx

variable [Cert.Pre_finite_inputs.Facts]

/-- The scalar shape has a single index. -/
instance : Subsingleton S_.Idx := ⟨fun a b => funext fun d => d.elim0⟩

/-- Where the precondition holds, ids are at most 16 and labels lie in 0..16. -/
theorem ranges_of_pre (x0 : FVec Ideal S256x64x2048 .f32) (x1 : FVec Ideal S256x768 .f32) (x2 : FVec Ideal S16x768 .f32)
    (x3 : IVec S256x64 32) (x4 : IVec S256x224x224 32) (x5 : FVec Ideal S768x2048 .f32) (x6 : FVec Ideal S2048 .f32)
    (x7 : FVec Ideal S768x768 .f32) (x8 : FVec Ideal S768 .f32) (x9 : FVec Ideal S_ .f32)
    (h : Cert.Pre_finite_inputs.fn (F := Ideal) x0 x1 x2 x3 x4 x5 x6 x7 x8 x9 = fun _ => 1#1) :
    (∀ i, (x3 i).toInt ≤ 16) ∧ (∀ j, 0 ≤ (x4 j).toInt ∧ (x4 j).toInt ≤ 16) := by
  -- the conjunction, read at the scalar result's one index
  have e : Cert.Pre_finite_inputs.fn (F := Ideal) x0 x1 x2 x3 x4 x5 x6 x7 x8 x9 ix0 = 1#1 := congrFun h ix0
  -- its outer three `and`s: (((floats ∧ ids ≤ 16) ∧ labels ≥ 0) ∧ labels ≤ 16)
  obtain ⟨e, hle⟩ := IntOp.andi_eq_one.1 e
  obtain ⟨e, hge⟩ := IntOp.andi_eq_one.1 e
  obtain ⟨-, hid⟩ := IntOp.andi_eq_one.1 e
  have c16 : (16#32 : BitVec 32).toInt = 16 := by decide
  have c0 : (0#32 : BitVec 32).toInt = 0 := by decide
  refine ⟨fun i => ?_, fun j => ⟨?_, ?_⟩⟩
  · -- every id compares ≤ 16, signed
    have p : IntOp.cmpi .sle (x3 i) (16#32) = 1#1 := Host.reduce_andi_all _ _ _ _ _ hid i
    have := IntOp.cmpi_sle.1 p
    rwa [c16] at this
  · -- every label compares ≥ 0, signed
    have p : IntOp.cmpi .sge (x4 j) (0#32) = 1#1 := Host.reduce_andi_all _ _ _ _ _ hge j
    have := IntOp.cmpi_sge.1 p
    rwa [c0] at this
  · -- every label compares ≤ 16, signed
    have p : IntOp.cmpi .sle (x4 j) (16#32) = 1#1 := Host.reduce_andi_all _ _ _ _ _ hle j
    have := IntOp.cmpi_sle.1 p
    rwa [c16] at this

end Cert.Pre_finite_inputs.Range

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.ObjRegion.lean ====
/-
  REGION 0 (the object kernel), read as a value at the exact instance: from ANY contents `V` of the TensorCore's buffers at
  the region's entry, the output array after all 32 grid points is the specification's `objOut` of the four input arrays
  as `V` holds them (features, the 16-row table, the entity ids, the 1x1 scale).

  Three steps. (1) The value a point stores at (a, o, d) of its 8 x 64 x 2048 block: the feature there plus the scale times
  the entry (r, d) of a 512 x 2048 product, r = 64 a + o the row of (a, o) in the flattened block; the product's left factor
  has in row r the sixteen indicators "the id at (a, o), less one, is k", so its entry is the sum over k of indicator times
  table entry (k, d): the specification's sum. A change of float format is the identity over the extended reals.
  (2) Point t reads block t along the rows of the ids and of the features, the whole table and the scale, and its block of the
  output is rows 8 t .. 8 t + 7: so what it writes back is block t of the specified array. (3) Row r lies in the block of
  point r / 8, so the 32 blocks cover the array and the array ends at the specified one.
-/
import proofs.«422021_j38525856645138_3_alg».proof.Proof.Gen.KernelIdeal.Frame
import proofs.«422021_j38525856645138_3_alg».proof.Proof.Spec
import proofs.«422021_j38525856645138_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ObjRegion

open Cert.KernelIdeal Cert.KernelIdeal.Gen
open Idealize.ShloMosaic Idealize.ShloMosaic.TcCoe Idealize.SL.Sem Idealize.ShloMosaic.ValueIdx

open scoped BigOperators

variable (V : (c : Dev nD) → (b : Ref sig .tc) → Buf (Elt Ideal) ((c : Thread nD τ).loc b))

/-! ## The indicator: an equality test of two words, widened and converted, is 1 or 0 -/

theorem indicator_eq (e n : BitVec 32) :
    (FloatOps.sitofp (F := Ideal) .f32 ((IntOp.cmpi .eq e n).setWidth 32) : EReal) = if e = n then 1 else 0 := by
  show (((((IntOp.cmpi .eq e n).setWidth 32).toInt : ℝ)) : EReal) = _
  by_cases h : e = n
  · rw [if_pos h]
    have hc : IntOp.cmpi .eq e n = 1#1 := by unfold IntOp.cmpi; simp [h]
    rw [hc]
    have : ((1#1 : BitVec 1).setWidth 32).toInt = 1 := by decide
    rw [this]; simp
  · rw [if_neg h]
    have hb : (e == n) = false := beq_eq_false_iff_ne.mpr h
    have hc : IntOp.cmpi .eq e n = 0#1 := by
      show BitVec.ofBool (e == n) = 0#1
      rw [hb]; rfl
    rw [hc]
    have : ((0#1 : BitVec 1).setWidth 32).toInt = 0 := by decide
    rw [this]; simp

/-! ## The two flattenings: row 64 a + o of the 512-row matrix is row (a, o) of the 8 x 64 block -/

theorem flat_row_lt (a : Fin 8) (o : Fin 64) : 64 * a.val + o.val < 512 := by omega

theorem unflatten_S512x2048 (x : FVec Ideal S512x2048 .f32) (h : S512x2048.ShapeCasts S8x64x2048)
    (a : Fin 8) (o : Fin 64) (d : Fin 2048) :
    shapeCast S8x64x2048 x h (ix3 a o d) = x (ix2 (⟨64 * a.val + o.val, flat_row_lt a o⟩ : Fin 512) d) := by
  refine shapeCast_apply x h (ix3 a o d) (ix2 (⟨64 * a.val + o.val, flat_row_lt a o⟩ : Fin 512) d) ?_
  rw [Shape.rowMajor_val_two, Shape.rowMajor_val_three]
  show (64 * a.val + o.val) * 2048 + d.val = (a.val * 64 + o.val) * 2048 + d.val
  omega

theorem flatten_S8x64x16 {φ : FTy} (x : FVec Ideal S8x64x16 φ) (h : S8x64x16.ShapeCasts S512x16)
    (a : Fin 8) (o : Fin 64) (k : Fin 16) :
    shapeCast S512x16 x h (ix2 (⟨64 * a.val + o.val, flat_row_lt a o⟩ : Fin 512) k) = x (ix3 a o k) := by
  refine shapeCast_apply x h (ix2 (⟨64 * a.val + o.val, flat_row_lt a o⟩ : Fin 512) k) (ix3 a o k) ?_
  rw [Shape.rowMajor_val_two, Shape.rowMajor_val_three]
  show (a.val * 64 + o.val) * 16 + k.val = (64 * a.val + o.val) * 16 + k.val
  omega

/-! ## The matrix product: where its dimension numbers send an output index and a contraction index -/

theorem lhs_obj_0 (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl
theorem lhs_obj_1 (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q
theorem rhs_obj_0 (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q
theorem rhs_obj_1 (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl

/-- The 512 x 16 by 16 x 2048 product into the zero splat, at (p, q): the sum over the sixteen k. -/
theorem product_at {φ₁ φ₂ : FTy} (l : FVec Ideal S512x16 φ₁) (r : FVec Ideal S16x2048 φ₂) (p : Fin 512) (q : Fin 2048) :
    matmul dot_S512x16_S16x2048_S512x2048_1_0_0_1_n_n none l r (constant (F := Ideal) S512x2048 .f32 0x00000000#32) (ix2 p q)
      = ∑ k : Fin 16, l (ix2 p k) * r (ix2 k q) :=
  Idealize.ShloMosaic.MatmulAt.matmul_at (M := 512) (K := 16) (N := 2048) dot_S512x16_S16x2048_S512x2048_1_0_0_1_n_n rfl rfl
    lhs_obj_0 lhs_obj_1 rhs_obj_0 rhs_obj_1 none l r p q

/-! ## The body's value at an index of the block -/

/-- The row of ids, less one, broadcast along the sixteen lanes, read at (a, o, k): the id at (a, o), less one. -/
theorem lanes_at (x2 : IVec S8x64 32) (h6 : S8x64.ShapeCasts S8x64x1) (h7 : S8x64x1.Broadcasts S8x64x16)
    (a : Fin 8) (o : Fin 64) (k : Fin 16) :
    broadcastTo S8x64x16 (shapeCast S8x64x1 (subi x2 (broadcast S8x64 1#32)) h6) h7 (ix3 a o k) = x2 (ix2 a o) - 1#32 := by
  refine (broadcastTo_apply _ h7 (ix3 a o k) (ix3 a o (0 : Fin 1)) fun b => ?_).trans ?_
  · match b with
    | ⟨0, _⟩ => rfl
    | ⟨1, _⟩ => rfl
    | ⟨2, _⟩ => rfl
  · refine (shapeCast_apply _ h6 (ix3 a o (0 : Fin 1)) (ix2 a o) ?_).trans rfl
    rw [Shape.rowMajor_val_two, Shape.rowMajor_val_three]
    show a.val * 64 + o.val = (a.val * 64 + o.val) * 1 + 0
    omega

/-- The lane counter read at (a, o, k) is k. -/
theorem counter_at (h5 : S8x64x16.Iotas .tc 32 [2]) (a : Fin 8) (o : Fin 64) (k : Fin 16) :
    iota .tc S8x64x16 32 [2] h5 (ix3 a o k) = BitVec.ofNat 32 k.val :=
  iota_single_apply .tc S8x64x16 32 2 h5 (ix3 a o k)

/-- The stored value at (a, o, d) of the block: the feature there plus the scale times the selected table row's entry,
    the selection written as the sum over the sixteen rows of the indicator that the id less one is the row. -/
theorem payload_at (x0 : FVec Ideal S1x1 .f32) (x2 : IVec S8x64 32) (x12 : FVec Ideal S16x2048 .f32)
    (x18 : FVec Ideal S8x64x2048 .f32) (a : Fin 8) (o : Fin 64) (d : Fin 2048) :
    k0_pay1 (F := Ideal) x0 x2 x12 x18 (ix3 a o d)
      = x18 (ix3 a o d) + x0 (ix2 (0 : Fin 1) (0 : Fin 1))
          * ∑ k : Fin 16, Cert.Spec.hit (x2 (ix2 a o) - 1#32) k.val * x12 (ix2 k d) := by
  unfold k0_pay1
  dsimp only
  refine congrArg₂ (· + ·) rfl (congrArg₂ (· * ·) ?_ ?_)
  · exact congrArg x0 (funext fun b => by match b with | ⟨0, _⟩ => rfl | ⟨1, _⟩ => rfl)
  · refine (unflatten_S512x2048 _ _ a o d).trans ?_
    refine (product_at _ _ _ d).trans ?_
    refine Finset.sum_congr rfl fun k _ => congrArg₂ (· * ·) ?_ ?_
    · refine (flatten_S8x64x16 _ _ a o k).trans ?_
      refine (indicator_eq _ _).trans ?_
      rw [lanes_at, counter_at]
      rfl
    · exact congrFun (shapeCast_self x12 _) (ix2 k d)

/-! ## One grid point: the stored block is the block of the specified array -/

/-- The stored value at (a, o, d) of the block, from blocks that hold rows (r, ·) of the features and of the ids, the
    whole table and the scale: the specified array at (r, o, d). -/
theorem point_value (x0 : FVec Ideal S1x1 .f32) (x1 : FVec Ideal S16x2048 .f32) (x2 : IVec S8x64 32)
    (x3 : FVec Ideal S8x64x2048 .f32) (feat : FVec Ideal S256x64x2048 .f32) (proj : FVec Ideal S16x2048 .f32)
    (ent : IVec S256x64 32) (g : EReal) (a : Fin 8) (o : Fin 64) (d : Fin 2048) (r : Fin 256)
    (hg : x0 (ix2 (0 : Fin 1) (0 : Fin 1)) = g)
    (hp : ∀ k : Fin 16, x1 (ix2 k d) = proj (ix2 k d))
    (he : x2 (ix2 a o) = ent (ix2 r o))
    (hf : x3 (ix3 a o d) = feat (ix3 r o d)) :
    k0_pay1 (F := Ideal) x0 x2 x1 x3 (ix3 a o d) = Cert.Spec.objOut feat proj ent g (ix3 r o d) := by
  rw [payload_at, Cert.Spec.objOut_ix3]
  unfold Cert.Spec.objAt
  rw [hg, he, hf]
  simp only [hp]

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the 32 points: the scale's and the table's block stay at the origin, the ids', the features' and the
    output's block is block t along the rows. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point t writes back is block t of the specified array. -/
theorem flushed_obj (c : Dev nD) (t : Fin cfg0.N) :
    (dat0 (F := Ideal) V c).flushed 4 t
      = ((cfg0.win 4).blk t).view.read (Elt Ideal)
          (Cert.Spec.objOut (V c main_arg0) (V c main_v3) (V c main_arg3)
            ((V c main_v8 : FVec Ideal S1x1 .f32) (ix2 (0 : Fin 1) (0 : Fin 1)))) := by
  show (cfg0.win 4).cut (grid0.coords t) ((dat0 V c).after 4 t) = _
  rw [after0_4]
  unfold out0_4
  rw [View.canon_unit_zero zero3]
  simp only [View.ld_unit_zero (S := S1x1) zero2, View.ld_unit_zero (S := S8x64) zero2,
    View.ld_unit_zero (S := S16x2048) zero2, View.ld_unit_zero (S := S8x64x2048) zero3]
  obtain ⟨e00, e01, e10, e11, e20, e21, e30, e31, e32, e40, e41, e42⟩ := index_facts t
  have ht : t.val < 32 := Nat.lt_of_lt_of_eq t.isLt N_0
  funext j
  obtain ⟨a, o, d, rfl⟩ : ∃ (a : Fin 8) (o : Fin 64) (d : Fin 2048), j = ix3 a o d := ⟨j 0, j 1, j 2, eq_ix3 j⟩
  have hr : 8 * t.val + a.val < 256 := by omega
  have hemb : ((cfg0.win 4).blk t).view.emb (ix3 a o d) = ix3 (⟨8 * t.val + a.val, hr⟩ : Fin 256) o d := by
    funext b; apply Fin.ext
    match b with
    | ⟨0, _⟩ => show win0_4.index t (0 : Fin 3) * 8 + 1 * a.val = 8 * t.val + a.val; omega
    | ⟨1, _⟩ => show win0_4.index t (1 : Fin 3) * 64 + 1 * o.val = o.val; omega
    | ⟨2, _⟩ => show win0_4.index t (2 : Fin 3) * 2048 + 1 * d.val = d.val; omega
  show k0_pay1 (F := Ideal) (iblk0 V c 0 t) (iblk0 V c 2 t) (iblk0 V c 1 t) (iblk0 V c 3 t) (ix3 a o d)
    = Cert.Spec.objOut (V c main_arg0) (V c main_v3) (V c main_arg3)
        ((V c main_v8 : FVec Ideal S1x1 .f32) (ix2 (0 : Fin 1) (0 : Fin 1))) (((cfg0.win 4).blk t).view.emb (ix3 a o d))
  rw [hemb]
  refine point_value (iblk0 V c 0 t) (iblk0 V c 1 t) (iblk0 V c 2 t) (iblk0 V c 3 t) (V c main_arg0) (V c main_v3)
    (V c main_arg3) ((V c main_v8 : FVec Ideal S1x1 .f32) (ix2 (0 : Fin 1) (0 : Fin 1))) a o d ⟨8 * t.val + a.val, hr⟩ ?_ ?_ ?_ ?_
  · show V c main_v8 (((cfg0.win 0).blk t).view.emb (ix2 (0 : Fin 1) (0 : Fin 1))) = V c main_v8 (ix2 (0 : Fin 1) (0 : Fin 1))
    refine congrArg (V c main_v8) (funext fun b => Fin.ext ?_)
    match b with
    | ⟨0, _⟩ => show win0_0.index t (0 : Fin 2) * 1 + 1 * 0 = 0; omega
    | ⟨1, _⟩ => show win0_0.index t (1 : Fin 2) * 1 + 1 * 0 = 0; omega
  · intro k
    show V c main_v3 (((cfg0.win 1).blk t).view.emb (ix2 k d)) = V c main_v3 (ix2 k d)
    refine congrArg (V c main_v3) (funext fun b => Fin.ext ?_)
    match b with
    | ⟨0, _⟩ => show win0_1.index t (0 : Fin 2) * 16 + 1 * k.val = k.val; omega
    | ⟨1, _⟩ => show win0_1.index t (1 : Fin 2) * 2048 + 1 * d.val = d.val; omega
  · show V c main_arg3 (((cfg0.win 2).blk t).view.emb (ix2 a o)) = V c main_arg3 (ix2 (⟨8 * t.val + a.val, hr⟩ : Fin 256) o)
    refine congrArg (V c main_arg3) (funext fun b => Fin.ext ?_)
    match b with
    | ⟨0, _⟩ => show win0_2.index t (0 : Fin 2) * 8 + 1 * a.val = 8 * t.val + a.val; omega
    | ⟨1, _⟩ => show win0_2.index t (1 : Fin 2) * 64 + 1 * o.val = o.val; omega
  · show V c main_arg0 (((cfg0.win 3).blk t).view.emb (ix3 a o d)) = V c main_arg0 (ix3 (⟨8 * t.val + a.val, hr⟩ : Fin 256) o d)
    refine congrArg (V c main_arg0) (funext fun b => Fin.ext ?_)
    match b with
    | ⟨0, _⟩ => show win0_3.index t (0 : Fin 3) * 8 + 1 * a.val = 8 * t.val + a.val; omega
    | ⟨1, _⟩ => show win0_3.index t (1 : Fin 3) * 64 + 1 * o.val = o.val; omega
    | ⟨2, _⟩ => show win0_3.index t (2 : Fin 3) * 2048 + 1 * d.val = d.val; omega

/-! ## All points: the blocks cover the array -/

/-- An index of the array is in point t's block iff each coordinate is in the block's range on its axis. -/
theorem mem_block (t : Fin cfg0.N) (i : S256x64x2048.Idx) :
    i ∈ ((cfg0.win 4).blk t).view.set ↔ ∀ a : Fin 3, win0_4.index t a * S8x64x2048.size a ≤ (i a).val
      ∧ (i a).val < win0_4.index t a * S8x64x2048.size a + S8x64x2048.size a := by
  show i ∈ ((View.whole main_v9).slice (win0_4.rect t)).set ↔ _
  rw [View.set_slice_whole, Rect.mem_set_unit]
  exact Iff.rfl

/-- Row r of the array lies in the block of point r / 8. -/
theorem covered (i : S256x64x2048.Idx) :
    ∃ t : Fin cfg0.N, (cfg0.win 4).flush t = true ∧ i ∈ ((cfg0.win 4).blk t).view.set := by
  have hi0 : (i 0).val < 256 := (i 0).isLt
  have hi1 : (i 1).val < 64 := (i 1).isLt
  have hi2 : (i 2).val < 2048 := (i 2).isLt
  have hq : (i 0).val / 8 < cfg0.N := Nat.lt_of_lt_of_eq (show (i 0).val / 8 < 32 by omega) N_0.symm
  obtain ⟨_, _, _, _, _, _, _, _, _, e40, e41, e42⟩ := index_facts ⟨(i 0).val / 8, hq⟩
  have e40' : win0_4.index ⟨(i 0).val / 8, hq⟩ (0 : Fin 3) = (i 0).val / 8 := e40
  refine ⟨⟨(i 0).val / 8, hq⟩, flush0_4 _, ?_⟩
  rw [mem_block]
  intro a
  match a with
  | ⟨0, _⟩ =>
    show win0_4.index ⟨(i 0).val / 8, hq⟩ (0 : Fin 3) * 8 ≤ (i 0).val
      ∧ (i 0).val < win0_4.index ⟨(i 0).val / 8, hq⟩ (0 : Fin 3) * 8 + 8
    omega
  | ⟨1, _⟩ =>
    show win0_4.index ⟨(i 0).val / 8, hq⟩ (1 : Fin 3) * 64 ≤ (i 1).val
      ∧ (i 1).val < win0_4.index ⟨(i 0).val / 8, hq⟩ (1 : Fin 3) * 64 + 64
    omega
  | ⟨2, _⟩ =>
    show win0_4.index ⟨(i 0).val / 8, hq⟩ (2 : Fin 3) * 2048 ≤ (i 2).val
      ∧ (i 2).val < win0_4.index ⟨(i 0).val / 8, hq⟩ (2 : Fin 3) * 2048 + 2048
    omega

/-- The object kernel's output array after the region. -/
theorem arr_obj (c : Dev nD) :
    (dat0 (F := Ideal) V c).arrAt 4 cfg0.N
      = Cert.Spec.objOut (V c main_arg0) (V c main_v3) (V c main_arg3)
          ((V c main_v8 : FVec Ideal S1x1 .f32) (ix2 (0 : Fin 1) (0 : Fin 1))) :=
  (dat0 (F := Ideal) V c).arrAt_eq_of_cover 4 _ (fun t _ => flushed_obj V c t) covered

end Cert.KernelIdeal.ObjRegion

end
-- ==== Proof.FrameRegionCover.lean ====
/-
  THE OUTPUT BLOCKS OF THE FRAME REGION. The region's grid has 8 points. At point `t` the output window (a 256 x 768 array
  cut into blocks of 32 x 768) sits at block index (t, 0); the two row-blocked inputs sit at block (t, 0) of their arrays
  as well, and the two inputs taken whole at block (0, 0). So point `t`'s output block is rows 32 t .. 32 t + 31, all
  768 columns; every point writes its block back; and row `r` of the array lies in the block of point `r / 32`, so the 8
  blocks cover the array.
-/
import proofs.«422021_j38525856645138_3_alg».proof.Proof.Gen.KernelIdeal.Frame
import Idealize.ShloMosaic.Lib.Pipeline.Value

set_option maxRecDepth 16384

noncomputable section

namespace Cert.KernelIdeal.FrameRegionCover

open Cert.KernelIdeal Cert.KernelIdeal.Gen
open Idealize.ShloMosaic Idealize.ShloMosaic.TcCoe Idealize.SL.Sem

/-- The printed index maps over the 8 points. -/
theorem idx_facts : ∀ t : Fin cfg1.N,
    win1_4.index t (0 : Fin 2) = t.val ∧ win1_4.index t (1 : Fin 2) = 0
    ∧ win1_3.index t (0 : Fin 2) = t.val ∧ win1_3.index t (1 : Fin 2) = 0
    ∧ win1_2.index t (0 : Fin 2) = t.val ∧ win1_2.index t (1 : Fin 2) = 0
    ∧ win1_1.index t (0 : Fin 2) = 0 ∧ win1_1.index t (1 : Fin 2) = 0
    ∧ win1_0.index t (0 : Fin 2) = 0 ∧ win1_0.index t (1 : Fin 2) = 0 :=
  (by decide +kernel : ∀ t : Fin grid1.N, _)

/-- An index of the output array is in point t's block iff each coordinate is in the block's range. -/
theorem mem_blk (t : Fin cfg1.N) (i : S256x768.Idx) :
    i ∈ ((cfg1.win 4).blk t).view.set ↔ ∀ a : Fin 2, win1_4.index t a * S32x768.size a ≤ (i a).val ∧ (i a).val < win1_4.index t a * S32x768.size a + S32x768.size a := by
  show i ∈ ((View.whole main_v12).slice (win1_4.rect t)).set ↔ _
  rw [View.set_slice_whole, Rect.mem_set_unit]
  exact Iff.rfl

/-- Every index of the output array is in some flushing point's block (row r is covered by point r / 32). -/
theorem cover (i : S256x768.Idx) : ∃ t : Fin cfg1.N, (cfg1.win 4).flush t = true ∧ i ∈ ((cfg1.win 4).blk t).view.set := by
  have hi0 : (i 0).val < 256 := (i 0).isLt
  have hi1 : (i 1).val < 768 := (i 1).isLt
  have hN : cfg1.N = 8 := N_1
  -- the point whose block holds row (i 0): the quotient by the block height
  obtain ⟨t, ht⟩ : ∃ t : Fin cfg1.N, t.val = (i 0).val / 32 := ⟨⟨(i 0).val / 32, by rw [hN]; omega⟩, rfl⟩
  obtain ⟨e0, e1, -⟩ := idx_facts t
  refine ⟨t, flush1_4 t, ?_⟩
  rw [mem_blk]
  intro a
  match a with
  | ⟨0, _⟩ =>
    show win1_4.index t (0 : Fin 2) * 32 ≤ (i 0).val ∧ (i 0).val < win1_4.index t (0 : Fin 2) * 32 + 32
    omega
  | ⟨1, _⟩ =>
    show win1_4.index t (1 : Fin 2) * 768 ≤ (i 1).val ∧ (i 1).val < win1_4.index t (1 : Fin 2) * 768 + 768
    omega

end Cert.KernelIdeal.FrameRegionCover

end
-- ==== Proof.FrameRegion.lean ====
/-
  REGION 1 (the frame kernel), read as a value at the exact instance: from ANY contents `V` of the TensorCore's buffers at
  the region's entry, the output array after all 8 grid points is the specification's `frameOut` of the four input arrays
  as `V` holds them (frame features, the 16-row table, the flattened pixel labels, the 1x1 scale).

  The mathematics. Grid point `t` owns rows 32t .. 32t+31. Its body carries a pair (accumulator 32x768, weight column
  32x1) through sixteen trips from zero; trip `k` counts, for each row `r` of the label block, the entries equal to
  `k + 1` (a sum of ones and zeros over the 50176 pixels), adds that count times row `k` of the table to the accumulator
  and the count to the weight. So before trip `n` the pair is (Σ_{j<n} count_j(r) · table(j, d), Σ_{j<n} count_j(r)): an
  induction whose step is "a sum over the first n+1 numbers is the sum over the first n plus the last term". After the
  last trip the body stores frame(r, d) + (scale · accumulator(r, d)) / (ω + weight(r)), which is the specification's
  entry at row 32t + r once each block is read where it sits in its array (a block's coordinate is block index times
  block size plus the coordinate inside). The eight row blocks tile the 256 rows, so the array ends as `frameOut`.
-/
import proofs.«422021_j38525856645138_3_alg».proof.Proof.Gen.KernelIdeal.Frame
import proofs.«422021_j38525856645138_3_alg».proof.Proof.Spec
import proofs.«422021_j38525856645138_3_alg».proof.Proof.FrameRegionCover
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.FrameRegion

open Cert.KernelIdeal Cert.KernelIdeal.Gen Cert.KernelIdeal.FrameRegionCover
open Idealize.ShloMosaic Idealize.ShloMosaic.TcCoe Idealize.SL.Sem Idealize.ShloMosaic.ValueIdx

section AnyFormat

variable {F : FTy → Type} [FloatOps F]

/-! ## What the body leaves, and what one trip does -/

/-- The whole-block offsets, however the zeros are spelt. -/
theorem hz2 : (![0, 0] : Fin 2 → Nat) = fun _ => 0 := funext fun a => by fin_cases a <;> rfl

/-- The carried pair before trip `n`, from the zero blocks. -/
abbrev carry (c : Dev nD) (i : grid1.Coords) (arg1 : Memref sig .tc .vmem S1x1 .f32) (harg1 : arg1.IsWhole) (arg2 : Memref sig .tc .vmem S16x768 .f32) (harg2 : arg2.IsWhole) (arg3 : Memref sig .tc .vmem S32x50176 .i32) (harg3 : arg3.IsWhole) (arg4 : Memref sig .tc .vmem S32x768 .f32) (harg4 : arg4.IsWhole) (arg5 : Memref sig .tc .vmem S32x768 .f32) (harg5 : arg5.IsWhole) (x1 : Vec F S16x768 .f32) (x2 : Vec F S32x50176 .i32) (n : ℕ) : FVec F S32x768 .f32 × FVec F S32x1 .f32 :=
  st_k1_t1 (F := F) Variants.none c none i arg1 harg1 arg2 harg2 arg3 harg3 arg4 harg4 arg5 harg5 x2 (harg2.unread x1) (k1_pay1 (F := F), k1_pay2 (F := F)) n

/-- What the body leaves in the output's buffer: the final payload of the scale, the carried pair after the
    last trip, and the frame block. -/
theorem piece (c : Dev nD) (i : grid1.Coords) (arg1 : Memref sig .tc .vmem S1x1 .f32) (harg1 : arg1.IsWhole) (arg2 : Memref sig .tc .vmem S16x768 .f32) (harg2 : arg2.IsWhole) (arg3 : Memref sig .tc .vmem S32x50176 .i32) (harg3 : arg3.IsWhole) (arg4 : Memref sig .tc .vmem S32x768 .f32) (harg4 : arg4.IsWhole) (arg5 : Memref sig .tc .vmem S32x768 .f32) (harg5 : arg5.IsWhole)
    (x0 : Vec F S1x1 .f32) (x1 : Vec F S16x768 .f32) (x2 : Vec F S32x50176 .i32) (x3 : Vec F S32x768 .f32) :
    out1_A_4 (F := F) c i arg1 harg1 arg2 harg2 arg3 harg3 arg4 harg4 arg5 harg5 x0 x1 x2 x3
      = k1_pay6 x0 (carry c i arg1 harg1 arg2 harg2 arg3 harg3 arg4 harg4 arg5 harg5 x1 x2 k1_t1_loop.trips).1 (carry c i arg1 harg1 arg2 harg2 arg3 harg3 arg4 harg4 arg5 harg5 x1 x2 k1_t1_loop.trips).2 x3 := by
  unfold out1_A_4
  rw [View.read_writes_eq_canon _ _ _ (cover1_A_4 c i arg1 harg1 arg2 harg2 arg3 harg3 arg4 harg4 arg5 harg5 x0 x1 x2 x3)]
  unfold kernelRun1_A
  dsimp only
  sl_unfold_words
  rw [View.canon_unit_zero hz2]
  simp only [View.readAt_eq_ld, harg1.read_unread, harg3.read_unread, harg4.read_unread, View.ld_unit_zero (S := S1x1) hz2, View.ld_unit_zero (S := S32x50176) hz2, View.ld_unit_zero (S := S32x768) hz2]

/-- One trip: the row of the table at the trip's offset goes into the two payloads. -/
theorem trip_eq (c : Dev nD) (i : grid1.Coords) (arg1 : Memref sig .tc .vmem S1x1 .f32) (harg1 : arg1.IsWhole) (arg2 : Memref sig .tc .vmem S16x768 .f32) (harg2 : arg2.IsWhole) (arg3 : Memref sig .tc .vmem S32x50176 .i32) (harg3 : arg3.IsWhole) (arg4 : Memref sig .tc .vmem S32x768 .f32) (harg4 : arg4.IsWhole) (arg5 : Memref sig .tc .vmem S32x768 .f32) (harg5 : arg5.IsWhole) (x1 : Vec F S16x768 .f32) (v2 : Vec F S32x50176 .i32) (k : Fin k1_t1_loop.trips) (acc : FVec F S32x768 .f32 × FVec F S32x1 .f32) :
    tripR_k1_t1 (F := F) Variants.none c none i arg1 harg1 arg2 harg2 arg3 harg3 arg4 harg4 arg5 harg5 v2 (harg2.unread x1) k acc
      = (k1_pay4 v2 k acc.1 (View.ld x1 (Rect.unit (s := S16x768) (k1_off1 k) S1x768.size (k1_off1_inb k))), k1_pay5 v2 k acc.2) := by
  unfold tripR_k1_t1 trip_k1_t1
  dsimp only
  simp only [View.readAt_eq_ld, harg2.read_unread]

end AnyFormat

/-! ## Layout operations on a column, read at an index -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The words of one comparison -/

/-- "Is this word that number", widened and converted: one or zero. -/
theorem hit_word (v w : BitVec 32) :
    (FloatOps.sitofp (F := Ideal) .f32 ((IntOp.cmpi .eq v w).setWidth 32) : Ideal .f32) = (if v = w then (1 : EReal) else 0) := by
  show ((((IntOp.cmpi .eq v w).setWidth 32).toInt : ℝ) : EReal) = _
  by_cases h : v = w
  · have e : IntOp.cmpi .eq v w = 1#1 := by simp [IntOp.cmpi, h]
    have e1 : ((1#1 : BitVec 1).setWidth 32).toInt = 1 := by decide
    rw [e, if_pos h, e1]; norm_num
  · have e : IntOp.cmpi .eq v w = 0#1 := by
      show BitVec.ofBool (v == w) = 0#1
      rw [beq_eq_false_iff_ne.mpr h]; rfl
    have e0 : ((0#1 : BitVec 1).setWidth 32).toInt = 0 := by decide
    rw [e, if_neg h, e0]; norm_num

/-- Trip `k` loads the table from row `k`, column 0. -/
theorem off_eq : ∀ k : Fin k1_t1_loop.trips, k1_off1 k = ![k.val, 0] := by decide

/-- The number trip `k` compares the labels against is `k + 1`. -/
theorem lab_eq : ∀ k : Fin k1_t1_loop.trips, Scalar.addi (Scf.iv 0#32 1#32 k) 1#32 = BitVec.ofNat 32 (k.val + 1) := by decide

/-! ## The payloads at an index, over the extended reals -/

/-- The comparison vector at an index. -/
theorem cnt_elt (x : IVec S32x50176 32) (w : BitVec 32) (i : S32x50176.Idx) :
    (sitofp (F := Ideal) .f32 (extui 32 (cmpi .eq (shapeCast S32x50176 x shapeCasts_S32x50176_S32x50176) (broadcast S32x50176 w)) natLt_1_32) : FVec Ideal S32x50176 .f32) i
      = if x i = w then 1 else 0 := by
  rw [shapeCast_self]
  exact hit_word (x i) w

/-- A row sum of a 32 x 50176 block. -/
theorem rowsum_apply (src : FVec Ideal S32x50176 .f32) (r : Fin 32) :
    multiReduction (F := Ideal) .add [1] S32 src 0x00000000#32 reduces_S32x50176_S32 (.inl rfl) rfl (ix1 r) = ∑ p : Fin 50176, src (ix2 r p) := by
  refine (Ideal.multiReduction_add_single src 0x00000000#32 reduces_S32x50176_S32 (.inl rfl) rfl (ix1 r)).trans ?_
  show ∑ p : Fin 50176, src (reduces_S32x50176_S32.lift (ix1 r) p) = _
  refine Finset.sum_congr rfl fun p _ => congrArg src ?_
  funext a
  match a with
  | ⟨0, _⟩ => rfl
  | ⟨1, _⟩ => rfl

/-- Trip `k`'s count column: at row `r`, how many entries of the label block's row `r` are `k + 1`. -/
theorem count_eq (x2 : IVec S32x50176 32) (k : Fin k1_t1_loop.trips) (r : Fin 32) (u : Fin 1) :
    k1_pay3 (F := Ideal) x2 k (ix2 r u) = ∑ p : Fin 50176, Cert.Spec.hit (x2 (ix2 r p)) (k.val + 1) := by
  unfold k1_pay3
  dsimp only
  refine (shapeCast_a_a1_apply _ _ r u).trans ?_
  refine (rowsum_apply _ r).trans ?_
  refine Finset.sum_congr rfl fun p _ => ?_
  refine (cnt_elt x2 _ (ix2 r p)).trans ?_
  unfold Cert.Spec.hit
  rw [lab_eq k]

/-- Trip `k`'s new accumulator: the old one plus the count column times the table's row. -/
theorem pay4_apply (x2 : IVec S32x50176 32) (k : Fin k1_t1_loop.trips) (acc : FVec Ideal S32x768 .f32) (row : FVec Ideal S1x768 .f32)
    (r : Fin 32) (d : Fin 768) :
    k1_pay4 (F := Ideal) x2 k acc row (ix2 r d) = acc (ix2 r d) + k1_pay3 (F := Ideal) x2 k (ix2 r (0 : Fin 1)) * row (ix2 (0 : Fin 1) d) := by
  unfold k1_pay4
  show acc (ix2 r d) + (broadcastTo S32x768 (k1_pay3 (F := Ideal) x2 k) broadcasts_S32x1_S32x768 (ix2 r d))
      * (broadcastTo S32x768 (shapeCast S1x768 (shapeCast S768 row shapeCasts_S1x768_S768) shapeCasts_S768_S1x768) broadcasts_S1x768_S32x768 (ix2 r d)) = _
  rw [shapeCast_shapeCast, broadcastTo_1b_ab_apply, broadcastTo_a1_ab_apply]

/-- Trip `k`'s new weight column. -/
theorem pay5_apply (x2 : IVec S32x50176 32) (k : Fin k1_t1_loop.trips) (ws : FVec Ideal S32x1 .f32) (r : Fin 32) (u : Fin 1) :
    k1_pay5 (F := Ideal) x2 k ws (ix2 r u) = ws (ix2 r u) + k1_pay3 (F := Ideal) x2 k (ix2 r u) := rfl

/-- The stored block: the frame block plus (scale times accumulator) over (offset plus weight). -/
theorem pay6_apply (x0 : FVec Ideal S1x1 .f32) (acc : FVec Ideal S32x768 .f32) (ws : FVec Ideal S32x1 .f32) (x3 : FVec Ideal S32x768 .f32)
    (r : Fin 32) (d : Fin 768) :
    k1_pay6 (F := Ideal) x0 acc ws x3 (ix2 r d)
      = x3 (ix2 r d) + Ideal.div (x0 (ix2 (0 : Fin 1) (0 : Fin 1)) * acc (ix2 r d)) (Cert.Spec.omega + ws (ix2 r (0 : Fin 1))) := by
  unfold k1_pay6
  show x3 (ix2 r d) + Ideal.div (extractAt ![0, 0] x0 inpos_S1x1_p0_0 * acc (ix2 r d))
      (broadcastTo S32x768 (addf (broadcast S32x1 (Scalar.ofBits (F := Ideal) .f32 0x358637BD#32)) ws) broadcasts_S32x1_S32x768 (ix2 r d)) = _
  rw [broadcastTo_a1_ab_apply]
  have e0 : extractAt ![0, 0] x0 inpos_S1x1_p0_0 = x0 (ix2 (0 : Fin 1) (0 : Fin 1)) :=
    congrArg x0 (funext fun a => by match a with | ⟨0, _⟩ => rfl | ⟨1, _⟩ => rfl)
  rw [e0]
  rfl

/-! ## The carried pair, trip by trip -/

/-- The loop makes sixteen trips. -/
theorem trips16 : k1_t1_loop.trips = 16 := by decide

/-- How many entries of row `r` of the label block are `j + 1`. -/
def cntB (x2 : IVec S32x50176 32) (j : ℕ) (r : Fin 32) : EReal := ∑ p : Fin 50176, Cert.Spec.hit (x2 (ix2 r p)) (j + 1)

/-- Row `j` of the table; zero past its last row. -/
def tab (x1 : FVec Ideal S16x768 .f32) (j : ℕ) (d : Fin 768) : EReal := if h : j < 16 then x1 (ix2 ⟨j, h⟩ d) else 0

/-- The row a trip loads is the table's row of that trip. -/
theorem row_apply (x1 : FVec Ideal S16x768 .f32) (k : Fin k1_t1_loop.trips) (d : Fin 768) :
    View.ld (Val := Elt Ideal) (e' := EltTy.f32) x1 (Rect.unit (s := S16x768) (k1_off1 k) S1x768.size (k1_off1_inb k)) (ix2 (0 : Fin 1) d) = tab x1 k.val d := by
  have hk : k.val < 16 := Nat.lt_of_lt_of_le k.isLt k1_t1_abs.2.1
  unfold tab
  rw [dif_pos hk]
  show x1 ((Rect.unit (s := S16x768) (k1_off1 k) S1x768.size (k1_off1_inb k)).idx (ix2 (0 : Fin 1) d)) = _
  refine congrArg x1 (funext fun a => Fin.ext ?_)
  match a with
  | ⟨0, _⟩ =>
    show k1_off1 k 0 + 1 * 0 = k.val
    rw [off_eq k]; rfl
  | ⟨1, _⟩ =>
    show k1_off1 k 1 + 1 * d.val = d.val
    rw [off_eq k]; show 0 + 1 * d.val = d.val; omega

/-- Before trip `n` the accumulator holds the first `n` rows' contributions and the weight column the first `n` counts. -/
theorem carry_eq (c : Dev nD) (i : grid1.Coords) (arg1 : Memref sig .tc .vmem S1x1 .f32) (harg1 : arg1.IsWhole) (arg2 : Memref sig .tc .vmem S16x768 .f32) (harg2 : arg2.IsWhole) (arg3 : Memref sig .tc .vmem S32x50176 .i32) (harg3 : arg3.IsWhole) (arg4 : Memref sig .tc .vmem S32x768 .f32) (harg4 : arg4.IsWhole) (arg5 : Memref sig .tc .vmem S32x768 .f32) (harg5 : arg5.IsWhole) (x1 : FVec Ideal S16x768 .f32) (x2 : IVec S32x50176 32) :
    ∀ n, n ≤ 16 →
      (∀ (r : Fin 32) (d : Fin 768), (carry (F := Ideal) c i arg1 harg1 arg2 harg2 arg3 harg3 arg4 harg4 arg5 harg5 x1 x2 n).1 (ix2 r d) = ∑ j ∈ Finset.range n, cntB x2 j r * tab x1 j d)
      ∧ (∀ (r : Fin 32) (u : Fin 1), (carry (F := Ideal) c i arg1 harg1 arg2 harg2 arg3 harg3 arg4 harg4 arg5 harg5 x1 x2 n).2 (ix2 r u) = ∑ j ∈ Finset.range n, cntB x2 j r)
  | 0, _ => by
    constructor
    · intro r d
      rw [Finset.range_zero, Finset.sum_empty]
      exact Ideal.ofBits_zero_f32
    · intro r u
      rw [Finset.range_zero, Finset.sum_empty]
      exact Ideal.ofBits_zero_f32
  | n + 1, h => by
    obtain ⟨ih1, ih2⟩ := carry_eq c i arg1 harg1 arg2 harg2 arg3 harg3 arg4 harg4 arg5 harg5 x1 x2 n (by omega)
    have hn : n < k1_t1_loop.trips := by rw [trips16]; omega
    have e : carry (F := Ideal) c i arg1 harg1 arg2 harg2 arg3 harg3 arg4 harg4 arg5 harg5 x1 x2 (n + 1)
        = (k1_pay4 (F := Ideal) x2 ⟨n, hn⟩ (carry (F := Ideal) c i arg1 harg1 arg2 harg2 arg3 harg3 arg4 harg4 arg5 harg5 x1 x2 n).1 (View.ld (Val := Elt Ideal) (e' := EltTy.f32) x1 (Rect.unit (s := S16x768) (k1_off1 ⟨n, hn⟩) S1x768.size (k1_off1_inb ⟨n, hn⟩))),
           k1_pay5 (F := Ideal) x2 ⟨n, hn⟩ (carry (F := Ideal) c i arg1 harg1 arg2 harg2 arg3 harg3 arg4 harg4 arg5 harg5 x1 x2 n).2) :=
      (st_k1_t1_succ (F := Ideal) Variants.none c none i arg1 harg1 arg2 harg2 arg3 harg3 arg4 harg4 arg5 harg5 x2 (harg2.unread x1) (k1_pay1 (F := Ideal), k1_pay2 (F := Ideal)) ⟨n, hn⟩).trans
        (trip_eq (F := Ideal) c i arg1 harg1 arg2 harg2 arg3 harg3 arg4 harg4 arg5 harg5 x1 x2 ⟨n, hn⟩ _)
    constructor
    · intro r d
      rw [e]
      show k1_pay4 (F := Ideal) x2 ⟨n, hn⟩ _ _ (ix2 r d) = _
      rw [pay4_apply, ih1, count_eq, row_apply, Finset.sum_range_succ]
      rfl
    · intro r u
      rw [e]
      show k1_pay5 (F := Ideal) x2 ⟨n, hn⟩ _ (ix2 r u) = _
      rw [pay5_apply, ih2, count_eq, Finset.sum_range_succ]
      rfl

/-- The block the body leaves, at an index. -/
theorem block_value (c : Dev nD) (i : grid1.Coords) (arg1 : Memref sig .tc .vmem S1x1 .f32) (harg1 : arg1.IsWhole) (arg2 : Memref sig .tc .vmem S16x768 .f32) (harg2 : arg2.IsWhole) (arg3 : Memref sig .tc .vmem S32x50176 .i32) (harg3 : arg3.IsWhole) (arg4 : Memref sig .tc .vmem S32x768 .f32) (harg4 : arg4.IsWhole) (arg5 : Memref sig .tc .vmem S32x768 .f32) (harg5 : arg5.IsWhole)
    (x0 : FVec Ideal S1x1 .f32) (x1 : FVec Ideal S16x768 .f32) (x2 : IVec S32x50176 32) (x3 : FVec Ideal S32x768 .f32) (r : Fin 32) (d : Fin 768) :
    out1_A_4 (F := Ideal) c i arg1 harg1 arg2 harg2 arg3 harg3 arg4 harg4 arg5 harg5 x0 x1 x2 x3 (ix2 r d)
      = x3 (ix2 r d) + Ideal.div (x0 (ix2 (0 : Fin 1) (0 : Fin 1)) * ∑ j ∈ Finset.range 16, cntB x2 j r * tab x1 j d)
          (Cert.Spec.omega + ∑ j ∈ Finset.range 16, cntB x2 j r) := by
  rw [piece (F := Ideal) c i arg1 harg1 arg2 harg2 arg3 harg3 arg4 harg4 arg5 harg5 x0 x1 x2 x3, pay6_apply, trips16]
  obtain ⟨h1, h2⟩ := carry_eq c i arg1 harg1 arg2 harg2 arg3 harg3 arg4 harg4 arg5 harg5 x1 x2 16 (le_refl _)
  rw [h1, h2]

/-- The same against the specification: the block's entry at `(r, d)` is the frame result at row `T`, when the blocks
    are the arrays' rows `T` (labels, frame features), the whole table, and the scale. -/
theorem frame_close (fr : FVec Ideal S256x768 .f32) (proj : FVec Ideal S16x768 .f32) (mk : IVec S256x50176 32) (g : EReal)
    (x0 : FVec Ideal S1x1 .f32) (x1 : FVec Ideal S16x768 .f32) (x2 : IVec S32x50176 32) (x3 : FVec Ideal S32x768 .f32)
    (T : Fin 256) (r : Fin 32) (d : Fin 768)
    (h0 : x0 (ix2 (0 : Fin 1) (0 : Fin 1)) = g) (h1 : ∀ k : Fin 16, x1 (ix2 k d) = proj (ix2 k d))
    (h2 : ∀ p : Fin 50176, x2 (ix2 r p) = mk (ix2 T p)) (h3 : x3 (ix2 r d) = fr (ix2 T d)) :
    x3 (ix2 r d) + Ideal.div (x0 (ix2 (0 : Fin 1) (0 : Fin 1)) * ∑ j ∈ Finset.range 16, cntB x2 j r * tab x1 j d)
        (Cert.Spec.omega + ∑ j ∈ Finset.range 16, cntB x2 j r)
      = Cert.Spec.frameAt fr proj mk g T d := by
  have hc : ∀ k : Fin 16, cntB x2 k.val r = Cert.Spec.cnt mk T k := fun k => by
    unfold cntB Cert.Spec.cnt
    exact Finset.sum_congr rfl fun p _ => by rw [h2 p]
  have ht : ∀ k : Fin 16, tab x1 k.val d = proj (ix2 k d) := fun k => by
    unfold tab
    rw [dif_pos k.isLt]
    exact h1 k
  unfold Cert.Spec.frameAt
  rw [h0, h3, Finset.sum_range (fun j => cntB x2 j r * tab x1 j d), Finset.sum_range (fun j => cntB x2 j r)]
  simp only [hc, ht]

/-! ## From the blocks to the array -/

variable (V : (c : Dev nD) → (b : Ref sig .tc) → Buf (Elt Ideal) ((c : Thread nD τ).loc b))

/-- What point `t` writes back is block `t` of the specification's result. -/
theorem flushed_eq (c : Dev nD) (t : Fin cfg1.N) :
    (dat1 (F := Ideal) V c).flushed 4 t
      = ((cfg1.win 4).blk t).view.read (Elt Ideal)
          (Cert.Spec.frameOut (V c main_arg1) (V c main_v7) (V c main_v11)
            ((V c main_v10 : FVec Ideal S1x1 .f32) (ix2 (0 : Fin 1) (0 : Fin 1)))) := by
  show (cfg1.win 4).cut (grid1.coords t) ((dat1 V c).after 4 t) = _
  rw [after1_4]
  unfold outsAt1
  obtain ⟨e40, e41, e30, e31, e20, e21, e10, e11, e00, e01⟩ := idx_facts t
  have ht : t.val < 8 := Nat.lt_of_lt_of_eq t.isLt N_1
  funext j
  obtain ⟨r, d, rfl⟩ : ∃ (r : Fin 32) (d : Fin 768), j = ix2 r d := ⟨j 0, j 1, eq_ix2 j⟩
  have hT : 32 * t.val + r.val < 256 := by have := r.isLt; omega
  refine (block_value c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t) r d).trans ?_
  refine (frame_close (V c main_arg1) (V c main_v7) (V c main_v11) ((V c main_v10 : FVec Ideal S1x1 .f32) (ix2 (0 : Fin 1) (0 : Fin 1)))
    (iblk1 V c 0 t) (iblk1 V c 1 t) (iblk1 V c 2 t) (iblk1 V c 3 t) ⟨32 * t.val + r.val, hT⟩ r d ?_ ?_ ?_ ?_).trans ?_
  · show V c main_v10 (((cfg1.win 0).blk t).view.emb (ix2 (0 : Fin 1) (0 : Fin 1))) = V c main_v10 (ix2 (0 : Fin 1) (0 : Fin 1))
    refine congrArg (V c main_v10) (funext fun a => Fin.ext ?_)
    match a with
    | ⟨0, _⟩ => show win1_0.index t (0 : Fin 2) * 1 + 1 * 0 = 0; omega
    | ⟨1, _⟩ => show win1_0.index t (1 : Fin 2) * 1 + 1 * 0 = 0; omega
  · intro k
    show V c main_v7 (((cfg1.win 1).blk t).view.emb (ix2 k d)) = V c main_v7 (ix2 k d)
    refine congrArg (V c main_v7) (funext fun a => Fin.ext ?_)
    match a with
    | ⟨0, _⟩ => show win1_1.index t (0 : Fin 2) * 16 + 1 * k.val = k.val; omega
    | ⟨1, _⟩ => show win1_1.index t (1 : Fin 2) * 768 + 1 * d.val = d.val; omega
  · intro p
    show V c main_v11 (((cfg1.win 2).blk t).view.emb (ix2 r p)) = V c main_v11 (ix2 ⟨32 * t.val + r.val, hT⟩ p)
    refine congrArg (V c main_v11) (funext fun a => Fin.ext ?_)
    match a with
    | ⟨0, _⟩ => show win1_2.index t (0 : Fin 2) * 32 + 1 * r.val = 32 * t.val + r.val; omega
    | ⟨1, _⟩ => show win1_2.index t (1 : Fin 2) * 50176 + 1 * p.val = p.val; omega
  · show V c main_arg1 (((cfg1.win 3).blk t).view.emb (ix2 r d)) = V c main_arg1 (ix2 ⟨32 * t.val + r.val, hT⟩ d)
    refine congrArg (V c main_arg1) (funext fun a => Fin.ext ?_)
    match a with
    | ⟨0, _⟩ => show win1_3.index t (0 : Fin 2) * 32 + 1 * r.val = 32 * t.val + r.val; omega
    | ⟨1, _⟩ => show win1_3.index t (1 : Fin 2) * 768 + 1 * d.val = d.val; omega
  · show _ = Cert.Spec.frameOut (V c main_arg1) (V c main_v7) (V c main_v11) _ (((cfg1.win 4).blk t).view.emb (ix2 r d))
    show Cert.Spec.frameAt _ _ _ _ _ _ = Cert.Spec.frameAt _ _ _ _ _ _
    congr 1
    · refine Fin.ext ?_
      show 32 * t.val + r.val = win1_4.index t (0 : Fin 2) * 32 + 1 * r.val
      omega
    · refine Fin.ext ?_
      show d.val = win1_4.index t (1 : Fin 2) * 768 + 1 * d.val
      omega

/-- The frame kernel's output array after the region. -/
theorem arr_frame (c : Dev nD) :
    (dat1 (F := Ideal) V c).arrAt 4 cfg1.N
      = Cert.Spec.frameOut (V c main_arg1) (V c main_v7) (V c main_v11)
          ((V c main_v10 : FVec Ideal S1x1 .f32) (ix2 (0 : Fin 1) (0 : Fin 1))) :=
  (dat1 (F := Ideal) V c).arrAt_eq_of_cover 4 _ (fun t _ => flushed_eq V c t) cover

end Cert.KernelIdeal.FrameRegion

end
-- ==== Proof.KernelValue.lean ====
/-
  THE IDEALIZED KERNEL'S TWO RESULTS AS FUNCTIONS OF THE ARGUMENTS. @main is: a stretch of host operations (the two 16-row
  tables `mark_embeddings · W + b`, and the scale reshaped to 1 x 1), region 0 (the object kernel), a second stretch (the
  scale again, the labels flattened to 256 x 50176), region 1 (the frame kernel). The buffer contents at the four
  boundaries are a fold from the launch memory; read through it, the first result is region 0's output array at the
  launch arguments and the first table, the second result region 1's at the launch arguments, the second table and the
  flattened labels: the specification's `objOut` and `frameOut`.
-/
import proofs.«422021_j38525856645138_3_alg».proof.Proof.KernelRun
import proofs.«422021_j38525856645138_3_alg».proof.Proof.ObjRegion
import proofs.«422021_j38525856645138_3_alg».proof.Proof.FrameRegion
import proofs.«422021_j38525856645138_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx Idealize.ShloMosaic.StableHlo

/-- The 16 x 2048 table of region 0: the mark embeddings times the object weights, plus the bias row. -/
def projObjK {F : FTy → Type} [FloatOps F] (x2 : FVec F S16x768 .f32) (x5 : FVec F S768x2048 .f32) (x6 : FVec F S2048 .f32) : FVec F S16x2048 .f32 :=
  addf (Host.dotGeneral dot_S16x768_S768x2048_S16x2048_1_0_0_1_n_n none x2 x5)
    (broadcastInDim S16x2048 ![0, 1] bcast_S1x2048_S16x2048_0_1 (broadcastInDim S1x2048 ![1] bcast_S2048_S1x2048_1 x6))

/-- The 16 x 768 table of region 1: the mark embeddings times the frame weights, plus the bias row. -/
def projFrameK {F : FTy → Type} [FloatOps F] (x2 : FVec F S16x768 .f32) (x7 : FVec F S768x768 .f32) (x8 : FVec F S768 .f32) : FVec F S16x768 .f32 :=
  addf (Host.dotGeneral dot_S16x768_S768x768_S16x768_1_0_0_1_n_n none x2 x7)
    (broadcastInDim S16x768 ![0, 1] bcast_S1x768_S16x768_0_1 (broadcastInDim S1x768 ![1] bcast_S768_S1x768_1 x8))

variable (m : (ℓ : Loc nD τ sig) → Buf (Elt Ideal) ℓ) (ρ : Dev nD → PrngReg)

/-! ## After the first host stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

/-- The first table. -/
theorem W1_v3 (c : Dev nD) : W1 m ρ c (Proc.devRef .tc main_v3)
    = projObjK (F := Ideal) (m ((c : Thread nD τ).loc main_arg2)) (m ((c : Thread nD τ).loc main_arg5)) (m ((c : Thread nD τ).loc main_arg6)) := by
  show StableHlo.after hostOps0 (W0 m ρ c) (Proc.devRef .tc main_v3) = _
  after_results
  rfl

/-- The second table. -/
theorem W1_v7 (c : Dev nD) : W1 m ρ c (Proc.devRef .tc main_v7)
    = projFrameK (F := Ideal) (m ((c : Thread nD τ).loc main_arg2)) (m ((c : Thread nD τ).loc main_arg7)) (m ((c : Thread nD τ).loc main_arg8)) := by
  show StableHlo.after hostOps0 (W0 m ρ c) (Proc.devRef .tc main_v7) = _
  after_results
  rfl

/-- The scale as a 1 x 1 array. -/
theorem W1_v8 (c : Dev nD) : (W1 m ρ c (Proc.devRef .tc main_v8) : FVec Ideal S1x1 .f32)
    = shapeCast S1x1 ((m ((c : Thread nD τ).loc main_arg9)) : FVec Ideal S_ .f32) shapeCasts_S_S1x1 := by
  show StableHlo.after hostOps0 (W0 m ρ c) (Proc.devRef .tc main_v8) = _
  after_results
  rfl

/-- A scalar reshaped to 1 x 1, read at its one entry. -/
theorem scale_entry (x : FVec Ideal S_ .f32) : shapeCast S1x1 x shapeCasts_S_S1x1 (ix2 (0 : Fin 1) (0 : Fin 1)) = x ix0 :=
  shapeCast_apply x shapeCasts_S_S1x1 _ _ (by decide)

/-! ## After region 0 -/

theorem W2_v9 (c : Dev nD) : W2 m ρ c (Proc.devRef .tc main_v9) = (dat0 (V1 m ρ) c).arrAt 4 cfg0.N := W2_arr m ρ c 4
theorem W2_v7 (c : Dev nD) : W2 m ρ c (Proc.devRef .tc main_v7) = W1 m ρ c (Proc.devRef .tc main_v7) := W2_of_ne m ρ c main_v7 (by decide)
theorem W2_arg1 (c : Dev nD) : W2 m ρ c (Proc.devRef .tc main_arg1) = W1 m ρ c (Proc.devRef .tc main_arg1) := W2_of_ne m ρ c main_arg1 (by decide)
theorem W2_arg4 (c : Dev nD) : W2 m ρ c (Proc.devRef .tc main_arg4) = W1 m ρ c (Proc.devRef .tc main_arg4) := W2_of_ne m ρ c main_arg4 (by decide)
theorem W2_arg9 (c : Dev nD) : W2 m ρ c (Proc.devRef .tc main_arg9) = W1 m ρ c (Proc.devRef .tc main_arg9) := W2_of_ne m ρ c main_arg9 (by decide)

/-! ## After the second host stretch -/

theorem W3_v9 (c : Dev nD) : W3 m ρ c (Proc.devRef .tc main_v9) = W2 m ρ c (Proc.devRef .tc main_v9) := by
  show StableHlo.after hostOps1 (W2 m ρ c) (Proc.devRef .tc main_v9) = _
  after_results <;> rfl
theorem W3_v7 (c : Dev nD) : W3 m ρ c (Proc.devRef .tc main_v7) = W2 m ρ c (Proc.devRef .tc main_v7) := by
  show StableHlo.after hostOps1 (W2 m ρ c) (Proc.devRef .tc main_v7) = _
  after_results <;> rfl
theorem W3_arg1 (c : Dev nD) : W3 m ρ c (Proc.devRef .tc main_arg1) = W2 m ρ c (Proc.devRef .tc main_arg1) := by
  show StableHlo.after hostOps1 (W2 m ρ c) (Proc.devRef .tc main_arg1) = _
  after_results <;> rfl
theorem W3_v10 (c : Dev nD) : (W3 m ρ c (Proc.devRef .tc main_v10) : FVec Ideal S1x1 .f32)
    = shapeCast S1x1 (W2 m ρ c (Proc.devRef .tc main_arg9) : FVec Ideal S_ .f32) shapeCasts_S_S1x1 := by
  show StableHlo.after hostOps1 (W2 m ρ c) (Proc.devRef .tc main_v10) = _
  after_results
  rfl
theorem W3_v11 (c : Dev nD) : (W3 m ρ c (Proc.devRef .tc main_v11) : IVec S256x50176 32)
    = shapeCast S256x50176 (W2 m ρ c (Proc.devRef .tc main_arg4) : IVec S256x224x224 32) shapeCasts_S256x224x224_S256x50176 := by
  show StableHlo.after hostOps1 (W2 m ρ c) (Proc.devRef .tc main_v11) = _
  after_results
  rfl

/-! ## After region 1 -/

theorem W4_v12 (c : Dev nD) : W4 m ρ c (Proc.devRef .tc main_v12) = (dat1 (V3 m ρ) c).arrAt 4 cfg1.N := W4_arr m ρ c 4
theorem W4_v9 (c : Dev nD) : W4 m ρ c (Proc.devRef .tc main_v9) = W3 m ρ c (Proc.devRef .tc main_v9) := W4_of_ne m ρ c main_v9 (by decide)

/-! ## The two results -/

/-- The first result: region 0's output array, at the launch arguments and the first table. -/
theorem v9_eq (c : Dev nD) : W4 m ρ c (Proc.devRef .tc main_v9) = Cert.Spec.objOut (m ((c : Thread nD τ).loc main_arg0)) (projObjK (F := Ideal) (m ((c : Thread nD τ).loc main_arg2)) (m ((c : Thread nD τ).loc main_arg5)) (m ((c : Thread nD τ).loc main_arg6))) (m ((c : Thread nD τ).loc main_arg3)) (((m ((c : Thread nD τ).loc main_arg9)) : FVec Ideal S_ .f32) ix0) := by
  rw [W4_v9, W3_v9, W2_v9, Cert.KernelIdeal.ObjRegion.arr_obj (V1 m ρ) c]
  show Cert.Spec.objOut (W1 m ρ c (Proc.devRef .tc main_arg0)) (W1 m ρ c (Proc.devRef .tc main_v3)) (W1 m ρ c (Proc.devRef .tc main_arg3))
      ((W1 m ρ c (Proc.devRef .tc main_v8) : FVec Ideal S1x1 .f32) (ix2 (0 : Fin 1) (0 : Fin 1))) = _
  rw [W1_arg0, W1_v3, W1_arg3, W1_v8, scale_entry]

/-- The second result: region 1's output array, at the launch arguments, the second table and the flattened labels. -/
theorem v12_eq (c : Dev nD) : W4 m ρ c (Proc.devRef .tc main_v12) = Cert.Spec.frameOut (m ((c : Thread nD τ).loc main_arg1)) (projFrameK (F := Ideal) (m ((c : Thread nD τ).loc main_arg2)) (m ((c : Thread nD τ).loc main_arg7)) (m ((c : Thread nD τ).loc main_arg8))) (shapeCast S256x50176 ((m ((c : Thread nD τ).loc main_arg4)) : IVec S256x224x224 32) shapeCasts_S256x224x224_S256x50176) (((m ((c : Thread nD τ).loc main_arg9)) : FVec Ideal S_ .f32) ix0) := by
  rw [W4_v12, Cert.KernelIdeal.FrameRegion.arr_frame (V3 m ρ) c]
  show Cert.Spec.frameOut (W3 m ρ c (Proc.devRef .tc main_arg1)) (W3 m ρ c (Proc.devRef .tc main_v7)) (W3 m ρ c (Proc.devRef .tc main_v11) : IVec S256x50176 32)
      ((W3 m ρ c (Proc.devRef .tc main_v10) : FVec Ideal S1x1 .f32) (ix2 (0 : Fin 1) (0 : Fin 1))) = _
  rw [W3_arg1, W2_arg1, W1_arg1, W3_v7, W2_v7, W1_v7, W3_v11, W2_arg4, W1_arg4, W3_v10, W2_arg9, W1_arg9, scale_entry]

/-- Every weakly fair execution of the idealized kernel's @main terminates, nothing faulting, with its two results the
    specification's functions of the launch arguments and the arguments unchanged. -/
theorem kernel_run : θ_run defs (onTc (τ := τ) (main (F := Ideal))) ⟨m, fun _ => 0, ρ⟩ (fun r => ∀ c : Dev nD,
      r.2.mem ((c.tc : Thread nD τ).loc main_v9) = Cert.Spec.objOut (m ((c : Thread nD τ).loc main_arg0)) (projObjK (F := Ideal) (m ((c : Thread nD τ).loc main_arg2)) (m ((c : Thread nD τ).loc main_arg5)) (m ((c : Thread nD τ).loc main_arg6))) (m ((c : Thread nD τ).loc main_arg3)) (((m ((c : Thread nD τ).loc main_arg9)) : FVec Ideal S_ .f32) ix0)
      ∧ r.2.mem ((c.tc : Thread nD τ).loc main_v12) = Cert.Spec.frameOut (m ((c : Thread nD τ).loc main_arg1)) (projFrameK (F := Ideal) (m ((c : Thread nD τ).loc main_arg2)) (m ((c : Thread nD τ).loc main_arg7)) (m ((c : Thread nD τ).loc main_arg8))) (shapeCast S256x50176 ((m ((c : Thread nD τ).loc main_arg4)) : IVec S256x224x224 32) shapeCasts_S256x224x224_S256x50176) (((m ((c : Thread nD τ).loc main_arg9)) : FVec Ideal S_ .f32) ix0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (v9_eq m ρ c), (h c).2.1.trans (v12_eq m ρ c), (h c).2.2⟩) (run_W4 m ρ)

end Cert.KernelIdeal.Val

end
-- ==== Proof.LibSlotGather.lean ====
/-
  THE SLOT GATHER READ AT AN INDEX. What `table[idx]` of a rank-2 table `table : [N, C]` at a rank-2 array of row
  indices `idx : [n, K]` lowers to: a `stablehlo.gather` with offset_dims `[2]`, collapsed_slice_dims `[0]`,
  start_index_map `[0]`, index_vector_dim `2` and slice_sizes `[1, C]`, over the indices kept as an `[n, K, 1]`
  column. Its result is `[n, K, C]`, and the element at `(p, k, q)` is the table's at `(row, q)`, where `row` is the
  start index `idx[p, k, 0]` read as a SIGNED integer and CLAMPED into `[0, N − 1]`.
-/
import Idealize.ShloMosaic.PureOps.Ideal
import Idealize.ShloMosaic.Lib.ValueIdx
noncomputable section
namespace Idealize.ShloMosaic.SlotGather
open Idealize.ShloMosaic Idealize.ShloMosaic.ValueIdx

/-- The dimension numbers of a row gather out of an [N, C] table at an [n, K, 1] column of row indices. -/
abbrev slotDims (N C n K : Nat)
    (wf : GatherDims.WF ⟨2, ![N, C]⟩ ⟨3, ![n, K, 1]⟩ ⟨3, ![n, K, C]⟩ [2] [0] [] [0] [] 2 ![1, C]) :
    GatherDims ⟨2, ![N, C]⟩ ⟨3, ![n, K, 1]⟩ ⟨3, ![n, K, C]⟩ where
  offsetDims := [2]
  collapsedSliceDims := [0]
  operandBatchingDims := []
  startIndicesBatchingDims := []
  startIndexMap := [0]
  indexVectorDim := 2
  sliceSizes := ![1, C]
  wf := wf

/-- The slot gather read at (p, k, q): the table at the clamped signed start index of slot (p, k), column q. -/
theorem slotGather_apply {α : Type} {N C n K w : Nat} (hN : 0 < N)
    (wf : GatherDims.WF ⟨2, ![N, C]⟩ ⟨3, ![n, K, 1]⟩ ⟨3, ![n, K, C]⟩ [2] [0] [] [0] [] 2 ![1, C])
    (x : (⟨2, ![N, C]⟩ : Shape).Idx → α) (idx : IVec ⟨3, ![n, K, 1]⟩ w) (p : Fin n) (k : Fin K) (q : Fin C) :
    Host.gather (slotDims N C n K wf) x idx (ix3 p k q)
      = x (ix2 (⟨min (idx (ix3 p k (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (slotDims N C n K wf).start (ix3 p k q) idx 0 + (slotDims N C n K wf).batchCoord (ix3 p k q) 0
        + (slotDims N C n K wf).offCoord (ix3 p k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (slotDims N C n K wf).startIndexMap from List.mem_singleton.mpr rfl)]
    -- the start index's one component is read at (p, k, 0): the result's batch coordinates p and k on the start
    -- indices' axes 0 and 1, the component's number 0 on the index vector's axis 2
    have hsi : (slotDims N C n K wf).siIdx (ix3 p k q) ⟨List.idxOf (0 : Fin 2) (slotDims N C n K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (slotDims N C n K wf).start (ix3 p k q) idx 1 + (slotDims N C n K wf).batchCoord (ix3 p k q) 1
        + (slotDims N C n K wf).offCoord (ix3 p k q) 1 = q.val
    have hk : (1 : Fin 2) ∈ (slotDims N C n K wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (slotDims N C n K wf).startIndexMap by
      show (1 : Fin 2) ∉ [(0 : Fin 2)]; decide), dif_pos hk]
    simp only [Nat.zero_add]
    rfl
end Idealize.ShloMosaic.SlotGather
end
-- ==== Proof.RefObj.lean ====
/-
  THE REFERENCE'S OBJECT RESULT is the specification's `objOut`, where every entity id is at most 16: the reference clips
  `id - 1` below at 0, wraps a negative index by 16, gathers that row of the table (the gather clamps its start index into
  the table) and keeps it only where `id > 0`; for an id in 1..16 that is row `id - 1`, for an id at most 0 it is nothing.
-/
import proofs.«422021_j38525856645138_3_alg».proof.Proof.Gen.ReferenceIdeal.Read
import proofs.«422021_j38525856645138_3_alg».proof.Proof.Spec
import proofs.«422021_j38525856645138_3_alg».proof.Proof.LibSlotGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefObj

open Cert.ReferenceIdeal Cert.ReferenceIdeal.Gen Cert.ReferenceIdeal.Read
open Idealize.ShloMosaic Idealize.ShloMosaic.TcCoe Idealize.SL.Sem Idealize.ShloMosaic.ValueIdx

/-! ## The id as a word: its comparison with 0, the start index computed from it, and the row it selects -/

/-- The start index the reference computes from the id `e`: `e - 1` clipped below at 0, then a negative value wrapped by 16. -/
def startW (e : BitVec 32) : BitVec 32 :=
  Scalar.select (IntOp.cmpi .slt (IntOp.maxsi 0#32 (IntOp.subi e 1#32)) 0#32)
    (IntOp.addi (IntOp.maxsi 0#32 (IntOp.subi e 1#32)) 16#32) (IntOp.maxsi 0#32 (IntOp.subi e 1#32))

/-- A word whose signed reading is in 1..16 has that unsigned reading too. -/
theorem toNat_of_pos {e : BitVec 32} (h0 : 0 < e.toInt) (h16 : e.toInt ≤ 16) : 1 ≤ e.toNat ∧ e.toNat ≤ 16 := by
  have hc := BitVec.toInt_eq_toNat_cond e
  have hlt := e.isLt
  split at hc <;> omega

/-- A word whose unsigned reading is in 1..16 reads the same signed. -/
theorem toInt_of_small {e : BitVec 32} (h : e.toNat ≤ 16) : e.toInt = e.toNat :=
  BitVec.toInt_eq_toNat_of_lt (by omega)

/-- For an id in 1..16, `e - 1` reads `e.toNat - 1`. -/
theorem sub_one_toNat {e : BitVec 32} (h1 : 1 ≤ e.toNat) (h16 : e.toNat ≤ 16) : (e - 1#32).toNat = e.toNat - 1 := by
  bv_omega

/-- The comparison `e > 0` (signed) holds for a positive id. -/
theorem sgt_of_pos {e : BitVec 32} (h0 : 0 < e.toInt) : IntOp.cmpi .sgt e 0#32 = 1#1 := by
  show BitVec.ofBool ((0#32).slt e) = 1#1
  have : (0#32).slt e = true := BitVec.slt_iff_toInt_lt.mpr (by rw [BitVec.toInt_zero]; exact h0)
  rw [this]; rfl

/-- The comparison `e > 0` (signed) fails for an id at most 0. -/
theorem sgt_of_nonpos {e : BitVec 32} (h0 : e.toInt ≤ 0) : IntOp.cmpi .sgt e 0#32 = 0#1 := by
  show BitVec.ofBool ((0#32).slt e) = 0#1
  have : (0#32).slt e = false := by
    rw [Bool.eq_false_iff]; intro h
    have := BitVec.slt_iff_toInt_lt.mp h
    rw [BitVec.toInt_zero] at this; omega
  rw [this]; rfl

/-- For an id in 1..16 the start index is `e - 1`: the clip and the wrap change nothing. -/
theorem startW_of_pos {e : BitVec 32} (h0 : 0 < e.toInt) (h16 : e.toInt ≤ 16) : startW e = e - 1#32 := by
  obtain ⟨h1, h2⟩ := toNat_of_pos h0 h16
  have hn := sub_one_toNat h1 h2
  have hns : (e - 1#32).slt 0#32 = false := by
    rw [Bool.eq_false_iff]; intro h
    have := BitVec.slt_iff_toInt_lt.mp h
    rw [BitVec.toInt_zero, toInt_of_small (e := e - 1#32) (by omega)] at this; omega
  have hm : IntOp.maxsi 0#32 (IntOp.subi e 1#32) = e - 1#32 := by
    show (if (e - 1#32).slt 0#32 then 0#32 else e - 1#32) = e - 1#32
    rw [hns]; rfl
  unfold startW
  rw [hm]
  show Scalar.select (BitVec.ofBool ((e - 1#32).slt 0#32)) _ _ = _
  rw [hns]
  exact select_zero _ _

/-- For an id at most 0 the word `e - 1` is none of 0..15. -/
theorem sub_one_ne_of_nonpos {e : BitVec 32} (h0 : e.toInt ≤ 0) (k : Nat) (hk : k < 16) : e - 1#32 ≠ BitVec.ofNat 32 k := by
  intro h
  have h1 : e.toNat = k + 1 := by bv_omega
  have := toInt_of_small (e := e) (by omega)
  omega

/-! ## The reference's stages read at a point -/

/-- The index the gather's start column is read at for slot (t, o) is (t, o) of the id array. -/
theorem idx15_eq (t : Fin 256) (o : Fin 64) : idx_main_v15 (ix3 t o (0 : Fin 1)) = ix2 t o := by
  funext a
  match a with
  | ⟨0, _⟩ => rfl
  | ⟨1, _⟩ => rfl

/-- The index the condition is read at for (t, o, d) is (t, o) of the id array. -/
theorem idx9_eq (t : Fin 256) (o : Fin 64) (d : Fin 2048) : idx_main_v9 (idx_main_call1_v1 (ix3 t o d)) = ix2 t o := by
  funext a
  match a with
  | ⟨0, _⟩ => rfl
  | ⟨1, _⟩ => rfl

/-- The start column at slot (t, o) is the start index computed from the id there. -/
theorem start_at (x3 : IVec S256x64 32) (t : Fin 256) (o : Fin 64) :
    val_main_v15 (F := Ideal) x3 (ix3 t o (0 : Fin 1)) = startW (x3 (ix2 t o)) := by
  rw [val_main_v15_apply, idx15_eq, val_main_v14_apply, val_main_v11_apply, val_main_v13_apply, val_main_v8_apply,
    val_main_v12_apply, val_main_c_3_apply, val_main_call0_v1_apply, val_main_call0_v0_apply, val_main_c_1_apply,
    val_main_v7_apply, val_main_v6_apply, val_main_c_0_apply, val_main_v10_apply, val_main_c_2_apply]
  rfl

/-- The table's row at a clamped signed start index depends on the start word only. -/
theorem row_congr (T : FVec Ideal S16x2048 .f32) {a b : BitVec 32} (h : a = b) (d : Fin 2048) :
    T (ix2 (⟨min a.toInt.toNat (16 - 1), by omega⟩ : Fin 16) d)
      = T (ix2 (⟨min b.toInt.toNat (16 - 1), by omega⟩ : Fin 16) d) := by
  subst h; rfl

/-- The gather at (t, o, d): the table at the clamped signed start index of slot (t, o), column d. -/
theorem gather_at (x2 : FVec Ideal S16x768 .f32) (x3 : IVec S256x64 32) (x5 : FVec Ideal S768x2048 .f32)
    (x6 : FVec Ideal S2048 .f32) (t : Fin 256) (o : Fin 64) (d : Fin 2048) :
    val_main_v16 (F := Ideal) x2 x3 x5 x6 (ix3 t o d)
      = val_main_v3 (F := Ideal) x2 x5 x6
          (ix2 (⟨min (startW (x3 (ix2 t o))).toInt.toNat (16 - 1), by omega⟩ : Fin 16) d) := by
  unfold val_main_v16
  exact (SlotGather.slotGather_apply (N := 16) (C := 2048) (n := 256) (K := 64) (by decide)
    gather_S16x2048_S256x64x1_S256x64x2048_2_0_n_n_0_2_12048_wf
    (val_main_v3 (F := Ideal) x2 x5 x6) (val_main_v15 (F := Ideal) x3) t o d).trans
    (row_congr _ (start_at x3 t o) d)

/-! ## The selected row as the specification's sum -/

/-- For an id in 1..16 the sum over the sixteen rows keeps exactly row `e - 1`. -/
theorem sum_hit_of_pos (T : FVec Ideal S16x2048 .f32) {e : BitVec 32} (d : Fin 2048) (hr : (e - 1#32).toNat < 16) :
    ∑ k : Fin 16, Cert.Spec.hit (e - 1#32) k.val * T (ix2 k d) = T (ix2 (⟨(e - 1#32).toNat, hr⟩ : Fin 16) d) := by
  rw [Finset.sum_eq_single (⟨(e - 1#32).toNat, hr⟩ : Fin 16)]
  · have : e - 1#32 = BitVec.ofNat 32 (e - 1#32).toNat := by
      apply BitVec.eq_of_toNat_eq
      rw [BitVec.toNat_ofNat, Nat.mod_eq_of_lt (e - 1#32).isLt]
    unfold Cert.Spec.hit
    rw [if_pos this, one_mul]
  · intro k _ hk
    have : ¬ e - 1#32 = BitVec.ofNat 32 k.val := by
      intro h
      apply hk
      apply Fin.ext
      have := congrArg BitVec.toNat h
      rw [BitVec.toNat_ofNat, Nat.mod_eq_of_lt (by have := k.isLt; omega)] at this
      exact this.symm
    unfold Cert.Spec.hit
    rw [if_neg this, zero_mul]
  · intro h; exact absurd (Finset.mem_univ _) h

/-- For an id at most 0 every term of the sum over the sixteen rows is zero. -/
theorem sum_hit_of_nonpos (T : FVec Ideal S16x2048 .f32) {e : BitVec 32} (h0 : e.toInt ≤ 0) (d : Fin 2048) :
    ∑ k : Fin 16, Cert.Spec.hit (e - 1#32) k.val * T (ix2 k d) = 0 := by
  apply Finset.sum_eq_zero
  intro k _
  unfold Cert.Spec.hit
  rw [if_neg (sub_one_ne_of_nonpos h0 k.val k.isLt), zero_mul]

/-- What the reference keeps of the table for an id `e` at most 16 — the gathered row where `e > 0`, else 0 — is the
    specification's sum over the sixteen rows. -/
theorem pick_eq (T : FVec Ideal S16x2048 .f32) (e : BitVec 32) (h16 : e.toInt ≤ 16) (d : Fin 2048) :
    Scalar.select (IntOp.cmpi .sgt e 0#32)
        (T (ix2 (⟨min (startW e).toInt.toNat (16 - 1), by omega⟩ : Fin 16) d)) (0 : EReal)
      = ∑ k : Fin 16, Cert.Spec.hit (e - 1#32) k.val * T (ix2 k d) := by
  by_cases h0 : 0 < e.toInt
  · -- an id in 1..16: the condition holds and the gathered row is row e - 1
    obtain ⟨h1, h2⟩ := toNat_of_pos h0 h16
    have hn := sub_one_toNat h1 h2
    have hr : (e - 1#32).toNat < 16 := by omega
    rw [sgt_of_pos h0, select_one, sum_hit_of_pos T d hr]
    refine congrArg (fun z => T (ix2 z d)) (Fin.ext ?_)
    show min (startW e).toInt.toNat (16 - 1) = (e - 1#32).toNat
    rw [startW_of_pos h0 h16, toInt_of_small (e := e - 1#32) (by omega)]
    omega
  · -- an id at most 0: the condition fails and no row is selected
    have h0' : e.toInt ≤ 0 := by omega
    rw [sgt_of_nonpos h0', select_zero, sum_hit_of_nonpos T h0' d]

/-- The reference's first result is the specification's, given the id range. -/
theorem ref_obj (x0 : FVec Ideal S256x64x2048 .f32) (x2 : FVec Ideal S16x768 .f32) (x3 : IVec S256x64 32)
    (x5 : FVec Ideal S768x2048 .f32) (x6 : FVec Ideal S2048 .f32) (x9 : FVec Ideal S_ .f32) (h3 : Cert.Spec.EntOk x3) :
    val_main_v20 (F := Ideal) x0 x2 x3 x5 x6 x9
      = Cert.Spec.objOut x0 (val_main_v3 (F := Ideal) x2 x5 x6) x3 (x9 ix0) := by
  funext i
  obtain ⟨t, o, d, rfl⟩ : ∃ (t : Fin 256) (o : Fin 64) (d : Fin 2048), i = ix3 t o d := ⟨i 0, i 1, i 2, eq_ix3 i⟩
  rw [Cert.Spec.objOut_ix3]
  rw [val_main_v20_apply, val_main_v19_apply, val_main_v18_apply, val_main_v17_apply, val_main_call1_v1_apply,
    val_main_v9_apply, val_main_v5_apply, val_main_v4_apply, val_main_c_apply, val_main_call1_v2_apply,
    val_main_call1_v0_apply, val_main_cst_apply, idx9_eq, gather_at]
  have hg : x9 (idx_main_v18 (ix3 t o d)) = x9 ix0 := congrArg x9 (eq_ix0 _)
  rw [hg, Ideal.addf_def, Ideal.mulf_def, Ideal.ofBits_def, Ideal.ofBits_zero_f32,
    pick_eq _ _ (h3 (ix2 t o)) d]
  rfl

end Cert.ReferenceIdeal.RefObj

end
-- ==== Proof.LibScatterSum.lean ====
/-
  THE ACCUMULATING ROW SCATTER READ AT AN INDEX, AND THE EXTENDED-REAL ALGEBRA AROUND IT.

  What `x.at[idx].add(upd)` (a segment sum) of a rank-2 operand `x : [N, C]` at a vector of row indices lowers to: a
  `stablehlo.scatter` with an `add` body, update_window_dims `[1]`, inserted_window_dims `[0]`,
  scatter_dims_to_operand_dims `[0]`, index_vector_dim `1`, over the indices kept as an `[n, 1]` column and updates
  `[n, C]`. Update row `e` lands on operand row `idx[e, 0]`, the start index read as a SIGNED integer and NOT clamped:
  a row index that is negative or at least `N` names no row, and that update row contributes nothing. At the exact
  (extended-real) instance the result at `(j, q)` is therefore `x[j, q]` plus the sum of `upd[e, q]` over the update
  rows `e` whose index is `j`.

  • `rowScatterDims N C n wf` is the record of those dimension numbers, a literal structure so that every list lookup in
    the result index computes; `rowScatter_start0` / `_start1` / `_window0` / `_window1` read the start and the window
    coordinate of update index `(e, q')` on the operand's two axes (`idx[e, 0]` signed and `0`; `0` and `q'`);
    `rowScatter_resultIdx?_eq_some_iff` says update index `(e, q')` lands on `(j, q)` exactly when `idx[e, 0] = j` as
    integers and `q' = q`; `rowScatterAdd_apply` is the read, and `rowHostScatterAdd_apply` the same read of the host's
    `Host.scatterAdd` at the exact instance (which is that sum by definition).
  • `vecScatterDims N n wf`, `vecScatter_resultIdx?_eq_some_iff`, `vecScatterAdd_apply`, `vecHostScatterAdd_apply`: the same for a rank-1 operand
    `[N]` with updates `[n]` (update_window_dims `[]`): the result at `j` is `x[j]` plus the sum of `upd[e]` over the
    `e` with `idx[e, 0] = j`.
  • `sum_mul_coe_of_nonneg`: multiplication by a nonnegative REAL distributes over every finite sum of extended reals,
    infinities of both signs included (for `r = 0` both sides are `0`; for `r > 0` multiplication by `r` keeps `⊤` and
    `⊥` and so commutes with the convention `⊤ + ⊥ = ⊥`); `add_mul_coe_of_nonneg` is the two-term form, and
    `coe_mul_sum_of_nonneg` / `coe_mul_add_of_nonneg'` the same with the real on the left.
  • `zero_add_sum_one`: `0` plus a sum of ones over a finite set is the set's cardinality, a natural number, so neither
    infinity; `rsqrt_natCast_pos`: the reciprocal square root of a positive natural number is a nonnegative real;
    `rsqrt_natCast_or_zero`: so is "the reciprocal square root where the number is positive, else `0`".

  The lemmas are general in `N`, `C`, `n` and the index width `w`; the conditions `wf` on the dimension numbers are
  decided on a program's literal shapes.
-/
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

/-! ## The rank-2 row scatter -/

/-- The dimension numbers of an accumulating row scatter into an [N, C] operand at an [n, 1] column of row indices,
    with updates [n, C]. -/
abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

/-- On the operand's row axis the window of update index (e, q') starts at the signed row index idx[e, 0]. -/
theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]
  -- the start index's one component is read at (e, 0): the update's scatter coordinate e on the scatter indices'
  -- axis 0, the component's number 0 on the index vector's axis 1
  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis, which the scatter indices do not address, the window starts at 0. -/
theorem rowScatter_start1 (idx : IVec ⟨2, ![n, 1]⟩ w) (e : Fin n) (q' : Fin C) :
    (rowScatterDims N C n wf).start (ix2 e q') idx 1 = 0 := by
  rfl

/-- The row axis is an inserted window axis: the window coordinate on it is 0. -/
theorem rowScatter_window0 (e : Fin n) (q' : Fin C) :
    (rowScatterDims N C n wf).window (ix2 e q') 0 = 0 := by
  rfl

/-- The column axis is the one window axis: the window coordinate on it is the update's column q'. -/
theorem rowScatter_window1 (e : Fin n) (q' : Fin C) :
    (rowScatterDims N C n wf).window (ix2 e q') 1 = q'.val := by
  rfl

/-- Update index (e, q') lands on operand index (j, q) exactly when the signed row index idx[e, 0] is j and the
    columns agree. -/
theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h
    -- the update is inside the operand: compare the landing index with (j, q) coordinate by coordinate
    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h
    -- the update is dropped: then its row index is not j, for j is a row of the operand and q' a column
    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- The accumulating row scatter read at (j, q): the operand there plus the sum of the updates' column q over the
    update rows whose signed row index is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1
  -- the update indices landing on (j, q) are the (e, q) with idx[e, 0] = j: re-index the sum by the update row e
  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

/-- The host's accumulating row scatter at the exact instance, at any float format, read at (j, q): by definition it
    is the exact sum above. -/
theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

/-! ## The rank-1 scatter -/

/-- The dimension numbers of an accumulating scatter into an [N] operand at an [n, 1] column of indices, with
    updates [n]. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window of update index e starts at the signed index idx[e, 0]. -/
theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]
  -- the start index's one component is read at (e, 0)
  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate on it is 0. -/
theorem vecScatter_window0 (e : Fin n) : (vecScatterDims N n wf).window (ix1 e) 0 = 0 := by
  rfl

/-- Update index e lands on operand index j exactly when the signed index idx[e, 0] is j. -/
theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h
    -- the update is inside the operand: compare the landing index with j
    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h
    -- the update is dropped: then its index is not j, for j is inside the operand
    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The accumulating scatter read at j: the operand there plus the sum of the updates whose signed index is j. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1
  -- the update indices landing on j are the e with idx[e, 0] = j
  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

/-- The host's accumulating rank-1 scatter at the exact instance, at any float format, read at j. -/
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

/-! ## Multiplication by a nonnegative real distributes over extended-real sums -/

/-- (a + b) · r = a · r + b · r for a real r ≥ 0 and any extended reals a, b. -/
theorem add_mul_coe_of_nonneg {r : ℝ} (hr : 0 ≤ r) (a b : EReal) :
    (a + b) * (r : EReal) = a * (r : EReal) + b * (r : EReal) := by
  exact EReal.right_distrib_of_nonneg_of_ne_top (EReal.coe_nonneg.mpr hr) (EReal.coe_ne_top r) a b

/-- r · (a + b) = r · a + r · b for a real r ≥ 0 and any extended reals a, b. -/
theorem coe_mul_add_of_nonneg' {r : ℝ} (hr : 0 ≤ r) (a b : EReal) :
    (r : EReal) * (a + b) = (r : EReal) * a + (r : EReal) * b := by
  exact EReal.left_distrib_of_nonneg_of_ne_top (EReal.coe_nonneg.mpr hr) (EReal.coe_ne_top r) a b

/-- (∑ f i) · r = ∑ (f i · r) for a real r ≥ 0 and any finite family of extended reals. -/
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih => rw [Finset.sum_insert ha, Finset.sum_insert ha, add_mul_coe_of_nonneg hr, ih]

/-- r · (∑ f i) = ∑ (r · f i) for a real r ≥ 0 and any finite family of extended reals. -/
theorem coe_mul_sum_of_nonneg {ι : Type*} {r : ℝ} (hr : 0 ≤ r) (s : Finset ι) (f : ι → EReal) :
    (r : EReal) * (∑ i ∈ s, f i) = ∑ i ∈ s, (r : EReal) * f i := by
  classical
  induction s using Finset.induction_on with
  | empty => simp
  | insert a s ha ih => rw [Finset.sum_insert ha, Finset.sum_insert ha, coe_mul_add_of_nonneg' hr, ih]

/-! ## Counting sums and their reciprocal square roots -/

/-- 0 plus a sum of ones over a finite set is the set's cardinality. -/
theorem zero_add_sum_one {ι : Type*} (s : Finset ι) :
    (0 : EReal) + ∑ _e ∈ s, (1 : EReal) = ((s.card : ℝ) : EReal) := by
  rw [zero_add, Finset.sum_const, nsmul_one]
  rfl

/-- The reciprocal square root of a positive natural number is a nonnegative real. -/
theorem rsqrt_natCast_pos {k : ℕ} (hk : 0 < k) :
    ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.mpr (Real.sqrt_nonneg _), ?_⟩
  rw [Ideal.rsqrt_coe, if_neg (not_lt.mpr hk'.le), if_neg hk'.ne']

/-- "The reciprocal square root where the natural number is positive, else 0" is a nonnegative real. -/
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · obtain ⟨r, hr, h⟩ := rsqrt_natCast_pos hk
    have hk' : (0 : ℝ) < (k : ℝ) := by exact_mod_cast hk
    exact ⟨r, hr, by rw [if_pos (by exact_mod_cast hk'), h]⟩

end Idealize.ShloMosaic.ScatterSum
end
-- ==== Proof.RefFrameCount.lean ====
/-
  THE COUNT LAW. Number the (row, pixel) pairs of a 256 x 50176 label array row-major, `e = 50176 * row + pixel`, and give
  pair `e` the 32-bit word `label + 17 * row`. Where every label lies in 0..16 the word does not wrap (it is at most
  16 + 17 * 255 = 4351) and determines the pair's row and label: it is `17 t + (k + 1)` exactly when the row is `t` and the
  label is `k + 1`. So the number of pairs whose word is `17 t + (k + 1)` is the number of pixels of row `t` labelled
  `k + 1`: the specification's `cnt`.
-/
import proofs.«422021_j38525856645138_3_alg».proof.Proof.Spec
import Mathlib.Algebra.BigOperators.Fin
import Mathlib.Algebra.BigOperators.Group.Finset.Basic
import Mathlib.Algebra.BigOperators.Group.Finset.Defs
import Mathlib.Data.EReal.Operations

set_option maxRecDepth 16384

noncomputable section

namespace Cert.Spec

open Idealize.ShloMosaic Idealize.ShloMosaic.ValueIdx
open scoped BigOperators

/-- A 32-bit word whose signed reading lies in 0..16 has that reading as its value. -/
private theorem word_small (v : BitVec 32) (h0 : 0 ≤ v.toInt) (h16 : v.toInt ≤ 16) : v.toNat ≤ 16 := by
  have hlt := v.isLt
  have e := BitVec.toInt_eq_toNat_cond v
  split at e <;> omega

/-- A label of value at most 16 plus 17 times a row below 256 does not wrap: the word reads `label + 17 * row`. -/
private theorem seg_val (v : BitVec 32) (hv : v.toNat ≤ 16) (r : ℕ) (hr : r < 256) :
    (v + 17#32 * BitVec.ofNat 32 r).toInt = ((v.toNat + 17 * r : ℕ) : ℤ) := by
  have hn : (v + 17#32 * BitVec.ofNat 32 r).toNat = v.toNat + 17 * r := by
    simp only [BitVec.toNat_add, BitVec.toNat_mul, BitVec.toNat_ofNat]
    omega
  rw [BitVec.toInt_eq_toNat_cond, hn]
  split <;> omega

/-- Division with remainder by 17: the word `label + 17 * r` reads `17 t + (k + 1)` exactly when `r = t` and the label
    word is `k + 1`. -/
private theorem seg_iff (mk : IVec ⟨2, ![256, 50176]⟩ 32) (h : MaskOk mk) (t : Fin 256) (k : Fin 16) (w : BitVec 32)
    (r : Fin 256) (q : Fin 50176) (hw : w = mk (ix2 r q) + 17#32 * BitVec.ofNat 32 r.val) :
    w.toInt = ((17 * t.val + (k.val + 1) : ℕ) : ℤ) ↔ r = t ∧ mk (ix2 r q) = BitVec.ofNat 32 (k.val + 1) := by
  obtain ⟨h0, h16⟩ := h (ix2 r q)
  have hv := word_small _ h0 h16
  have hk := k.isLt
  have hvk : mk (ix2 r q) = BitVec.ofNat 32 (k.val + 1) ↔ (mk (ix2 r q)).toNat = k.val + 1 := by
    rw [← BitVec.toNat_inj, BitVec.toNat_ofNat]
    omega
  rw [hw, seg_val _ hv r.val r.isLt, hvk, Fin.ext_iff]
  omega

/-- The pairs whose word `seg e` (the label plus 17 times the row, for `e` the row-major number of the pair) reads
    `17 t + (k + 1)` are counted by `cnt mk t k`. -/
theorem count_law (mk : IVec ⟨2, ![256, 50176]⟩ 32) (h : MaskOk mk) (seg : Fin 12845056 → BitVec 32)
    (hseg : ∀ e : Fin 12845056, seg e
      = mk (ix2 (⟨e.val / 50176, Nat.div_lt_of_lt_mul (by have := e.isLt; omega)⟩ : Fin 256)
              (⟨e.val % 50176, Nat.mod_lt _ (by norm_num)⟩ : Fin 50176))
        + 17#32 * BitVec.ofNat 32 (e.val / 50176))
    (t : Fin 256) (k : Fin 16) :
    ∑ _e ∈ Finset.univ.filter (fun e : Fin 12845056 => (seg e).toInt = ((17 * t.val + (k.val + 1) : ℕ) : ℤ)), (1 : EReal)
      = cnt mk t k := by
  -- the word of pair `e`, with the pair's row and pixel named
  have hs : ∀ (e : Fin 12845056) (r : Fin 256) (q : Fin 50176), e.val / 50176 = r.val → e.val % 50176 = q.val →
      seg e = mk (ix2 r q) + 17#32 * BitVec.ofNat 32 r.val := by
    intro e r q hr hq
    obtain ⟨r, hr'⟩ := r
    obtain ⟨q, hq'⟩ := q
    dsimp only at hr hq
    subst hr hq
    exact hseg e
  have key : ∀ (e : Fin 12845056) (r : Fin 256) (q : Fin 50176), e.val / 50176 = r.val → e.val % 50176 = q.val →
      ((seg e).toInt = ((17 * t.val + (k.val + 1) : ℕ) : ℤ) ↔ r = t ∧ mk (ix2 r q) = BitVec.ofNat 32 (k.val + 1)) :=
    fun e r q hr hq => seg_iff mk h t k (seg e) r q (hs e r q hr hq)
  have hrow : ∀ e : Fin 12845056, e.val / 50176 < 256 := fun e => by have := e.isLt; omega
  have hpix : ∀ e : Fin 12845056, e.val % 50176 < 50176 := fun e => Nat.mod_lt _ (by norm_num)
  -- the pairs counted on the left are the pixels of row `t` labelled `k + 1`: `e ↦ e % 50176`, back by `p ↦ 50176 t + p`
  refine (Finset.sum_nbij' (t := Finset.univ.filter (fun p : Fin 50176 => mk (ix2 t p) = BitVec.ofNat 32 (k.val + 1)))
    (g := fun _ => (1 : EReal))
    (fun e => (⟨e.val % 50176, hpix e⟩ : Fin 50176))
    (fun p => (⟨50176 * t.val + p.val, by have := t.isLt; have := p.isLt; omega⟩ : Fin 12845056)) ?_ ?_ ?_ ?_ ?_).trans ?_
  · intro e he
    rw [Finset.mem_filter] at he ⊢
    obtain ⟨hrt, hv⟩ := (key e ⟨e.val / 50176, hrow e⟩ ⟨e.val % 50176, hpix e⟩ rfl rfl).1 he.2
    refine ⟨Finset.mem_univ _, ?_⟩
    rw [← hrt]
    exact hv
  · intro p hp
    rw [Finset.mem_filter] at hp ⊢
    have hp' := p.isLt
    refine ⟨Finset.mem_univ _, (key _ t p ?_ ?_).2 ⟨rfl, hp.2⟩⟩
    · show (50176 * t.val + p.val) / 50176 = t.val
      omega
    · show (50176 * t.val + p.val) % 50176 = p.val
      omega
  · intro e he
    rw [Finset.mem_filter] at he
    obtain ⟨hrt, -⟩ := (key e ⟨e.val / 50176, hrow e⟩ ⟨e.val % 50176, hpix e⟩ rfl rfl).1 he.2
    have hrt' : e.val / 50176 = t.val := congrArg Fin.val hrt
    apply Fin.ext
    show 50176 * t.val + e.val % 50176 = e.val
    omega
  · intro p hp
    have hp' := p.isLt
    apply Fin.ext
    show (50176 * t.val + p.val) % 50176 = p.val
    omega
  · intro e he
    rfl
  · -- a sum of ones over the selected pixels is the sum over all pixels of the 0/1 mark
    unfold cnt hit
    exact Finset.sum_filter _ _

end Cert.Spec

end
-- ==== Proof.RefFrame.lean ====
/-
  THE REFERENCE'S FRAME RESULT is the specification's `frameOut`, where every pixel label lies in 0..16: the reference
  numbers the (row, label) pairs `label + 17 * row`, adds a one per pixel into 4352 bins (a segment sum), reshapes the
  bins to 256 x 17 and drops column 0; with labels in 0..16 the bin `17 t + (k + 1)` receives exactly the pixels of row
  `t` labelled `k + 1`, which is the specification's count.
-/
import proofs.«422021_j38525856645138_3_alg».proof.Proof.Gen.ReferenceIdeal.Read
import proofs.«422021_j38525856645138_3_alg».proof.Proof.Spec
import proofs.«422021_j38525856645138_3_alg».proof.Proof.LibScatterSum
import proofs.«422021_j38525856645138_3_alg».proof.Proof.RefFrameCount
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefFrame

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The f32 word 0x3F800000 is the number one. -/
theorem ofBits_one_f32 : Ideal.ofBits .f32 0x3F800000#32 = 1 := by
  simp [Ideal.ofBits, Ideal.ieee, -EReal.coe_mul]
  norm_num

/-- The index of update `e`, the row-major number of the pair (row `e / 50176`, pixel `e % 50176`), is the word
    label + 17 * row. -/
theorem index_word (x4 : IVec S256x224x224 32) (e : Fin 12845056) :
    val_main_v31 (F := Ideal) x4 (ix2 e (0 : Fin 1))
      = val_main_v21 (F := Ideal) x4
          (ix2 (⟨e.val / 50176, Nat.div_lt_of_lt_mul (by have := e.isLt; omega)⟩ : Fin 256)
               (⟨e.val % 50176, Nat.mod_lt _ (by norm_num)⟩ : Fin 50176))
        + 17#32 * BitVec.ofNat 32 (e.val / 50176) := by
  rw [val_main_v31_apply, val_main_v28_apply, val_main_v27_apply, val_main_v26_apply, val_main_v25_apply,
    val_main_v24_apply, val_main_v23_apply, val_main_v22_apply, val_main_c_4_apply]
  have hi : idx_main_v28 (idx_main_v31 (ix2 e (0 : Fin 1)))
      = ix2 (⟨e.val / 50176, Nat.div_lt_of_lt_mul (by have := e.isLt; omega)⟩ : Fin 256)
            (⟨e.val % 50176, Nat.mod_lt _ (by norm_num)⟩ : Fin 50176) := by
    funext a
    match a with
    | ⟨0, _⟩ => rfl
    | ⟨1, _⟩ => rfl
  rw [hi]
  rfl

/-- The bins read back: the reference's count at (t, k), bin `17 t + (k + 1)` of the segment sum, is the
    specification's count of the pixels of row `t` labelled `k + 1`. -/
theorem counts_apply (x4 : IVec S256x224x224 32) (h4 : Cert.Spec.MaskOk (val_main_v21 (F := Ideal) x4))
    (t : Fin 256) (k : Fin 16) :
    val_main_v34 (F := Ideal) x4 (ix2 t k) = Cert.Spec.cnt (val_main_v21 (F := Ideal) x4) t k := by
  rw [val_main_v34_apply, val_main_v33_apply]
  have hlt : t.val * 17 + (1 + k.val) < 4352 := by have := t.isLt; have := k.isLt; omega
  have hj : idx_main_v33 (idx_main_v34 (ix2 t k)) = ix1 (⟨t.val * 17 + (1 + k.val), hlt⟩ : Fin 4352) := by
    funext a
    match a with
    | ⟨0, _⟩ => rfl
  rw [hj]
  unfold val_main_v32
  -- the reference's dimension numbers are those of the rank-1 accumulating scatter
  have hrec : scatter_S4352_S12845056x1_S12845056_n_0_0_1
      = ScatterSum.vecScatterDims 4352 12845056 Facts₀.scatter_S4352_S12845056x1_S12845056_n_0_0_1_wf := rfl
  rw [hrec]
  refine (ScatterSum.vecHostScatterAdd_apply _ _ _ _ _).trans ?_
  -- the operand is zero and every update is one
  have h0 : val_main_v30 (F := Ideal) (ix1 (⟨t.val * 17 + (1 + k.val), hlt⟩ : Fin 4352)) = 0 := by
    rw [val_main_v30_apply, val_main_cst_6_apply, Ideal.ofBits_def, Ideal.ofBits_zero_f32]
  have h1 : ∀ e : Fin 12845056, val_main_v29 (F := Ideal) (ix1 e) = 1 := fun e => by
    rw [val_main_v29_apply, val_main_cst_5_apply, Ideal.ofBits_def, ofBits_one_f32]
  rw [h0, zero_add, Finset.sum_congr rfl (fun e _ => h1 e)]
  have hnum : (((⟨t.val * 17 + (1 + k.val), hlt⟩ : Fin 4352).val : ℕ) : ℤ) = ((17 * t.val + (k.val + 1) : ℕ) : ℤ) := by
    show ((t.val * 17 + (1 + k.val) : ℕ) : ℤ) = ((17 * t.val + (k.val + 1) : ℕ) : ℤ)
    congr 1
    omega
  rw [hnum]
  exact Cert.Spec.count_law (val_main_v21 (F := Ideal) x4) h4
    (fun e => val_main_v31 (F := Ideal) x4 (ix2 e (0 : Fin 1))) (fun e => index_word x4 e) t k

/-- The reference's second result is the specification's, given the label range of the flattened labels. -/
theorem ref_frame (x1 : FVec Ideal S256x768 .f32) (x2 : FVec Ideal S16x768 .f32) (x4 : IVec S256x224x224 32)
    (x7 : FVec Ideal S768x768 .f32) (x8 : FVec Ideal S768 .f32) (x9 : FVec Ideal S_ .f32)
    (h4 : Cert.Spec.MaskOk (val_main_v21 (F := Ideal) x4)) :
    val_main_v48 (F := Ideal) x1 x2 x4 x7 x8 x9
      = Cert.Spec.frameOut x1 (val_main_v38 (F := Ideal) x2 x7 x8) (val_main_v21 (F := Ideal) x4) (x9 ix0) := by
  funext i
  obtain ⟨t, d, rfl⟩ : ∃ (t : Fin 256) (d : Fin 768), i = ix2 t d := ⟨i 0, i 1, eq_ix2 i⟩
  rw [Cert.Spec.frameOut_ix2]
  unfold Cert.Spec.frameAt
  rw [val_main_v48_apply, val_main_v47_apply, val_main_v45_apply, val_main_v44_apply, val_main_v39_apply,
    val_main_v46_apply, val_main_v43_apply, val_main_v42_apply, val_main_cst_8_apply, val_main_v41_apply,
    val_main_v40_apply, val_main_cst_7_apply]
  -- the operands' indices at (t, d)
  have hl : ∀ k : Fin 16, lidx_main_v39 (ix2 t d) k = ix2 t k := fun k => by
    funext a
    match a with
    | ⟨0, _⟩ => rfl
    | ⟨1, _⟩ => rfl
  have hr : ∀ k : Fin 16, ridx_main_v39 (ix2 t d) k = ix2 k d := fun k => by
    funext a
    match a with
    | ⟨0, _⟩ => rfl
    | ⟨1, _⟩ => rfl
  have hs : ∀ k : Fin 16, idx_main_v40 (idx_main_v41 (idx_main_v46 (ix2 t d))) k = ix2 t k := fun k => by
    funext a
    match a with
    | ⟨0, _⟩ => rfl
    | ⟨1, _⟩ => rfl
  simp only [hl, hr, hs, counts_apply x4 h4, Ideal.addf_def, Ideal.mulf_def, Ideal.hostDivf_def, Ideal.ofBits_def,
    Ideal.ofBits_zero_f32, zero_add]
  rfl

end Cert.ReferenceIdeal.RefFrame

end
-- ==== Proof.lean ====
/-
  The two programs compute the same two arrays over the extended reals, where every entity id is at most 16 and every
  pixel label lies in 0..16.

  Objects. Both add to `obj_feat` the scale `gamma` times the mark row an entity id selects out of the 16-row table
  `mark_embeddings · W_obj + b_obj`: id `e` in 1..16 selects row `e - 1`, an id at most 0 selects nothing. The kernel
  forms the selection as a product of a one-hot row (the comparison of `e - 1` with 0..15) with the table; the reference
  gathers row `max(e - 1, 0)` and keeps it where `e > 0`. For `e > 16` the two differ (the kernel selects nothing, the
  reference's gather clamps to row 15), which is why the id range is assumed.

  Frames. Both add to `frame_feat` the quotient of `gamma · Σ_k count(t,k) · table(k, ·)` by `ω + Σ_k count(t,k)`, where
  `count(t,k)` is the number of pixels of frame `t` labelled `k + 1` and the table is `mark_embeddings · W_frame +
  b_frame`. The kernel counts by comparing the flattened labels with `k + 1` and summing along the row, sixteen times in
  a loop that accumulates `count · row` and `count`; the reference numbers the (frame, label) pairs `label + 17 · frame`
  and adds a one per pixel into 4352 bins, then multiplies the 256 x 16 counts with the table. A label outside 0..16 would
  fall into another frame's bin, which is why the label range is assumed. Sums of the same terms in another order are
  equal on the extended reals, so no finiteness is used.

  The modules: Spec (the two results as functions), PreRange (the ranges out of the precondition), KernelRun and
  KernelValue (the idealized kernel's run read as those functions, over ObjRegion and FrameRegion, one per
  pallas_call), RefObj and RefFrame (the reference's two stages are those functions), and here the five claims.
-/
import proofs.«422021_j38525856645138_3_alg».proof.Defs
import proofs.«422021_j38525856645138_3_alg».proof.Proof.Gen.Kernel
import proofs.«422021_j38525856645138_3_alg».proof.Proof.Gen.Kernel.Skeleton
import proofs.«422021_j38525856645138_3_alg».proof.Proof.Gen.Kernel.Loops
import proofs.«422021_j38525856645138_3_alg».proof.Proof.Gen.Kernel.Launch
import proofs.«422021_j38525856645138_3_alg».proof.Proof.Gen.Kernel.Points
import proofs.«422021_j38525856645138_3_alg».proof.Proof.Gen.Kernel.Frame
import proofs.«422021_j38525856645138_3_alg».proof.Proof.Gen.KernelIdeal
import proofs.«422021_j38525856645138_3_alg».proof.Proof.Gen.KernelIdeal.Skeleton
import proofs.«422021_j38525856645138_3_alg».proof.Proof.Gen.KernelIdeal.Loops
import proofs.«422021_j38525856645138_3_alg».proof.Proof.Gen.KernelIdeal.Launch
import proofs.«422021_j38525856645138_3_alg».proof.Proof.Gen.KernelIdeal.Points
import proofs.«422021_j38525856645138_3_alg».proof.Proof.Gen.KernelIdeal.Frame
import proofs.«422021_j38525856645138_3_alg».proof.Proof.Gen.ReferenceIdeal
import proofs.«422021_j38525856645138_3_alg».proof.Proof.Gen.ReferenceIdeal.Run
import proofs.«422021_j38525856645138_3_alg».proof.Proof.Gen.ReferenceIdeal.Read
import proofs.«422021_j38525856645138_3_alg».proof.Proof.Gen.Pre_finite_inputs
import proofs.«422021_j38525856645138_3_alg».proof.Proof.Spec
import proofs.«422021_j38525856645138_3_alg».proof.Proof.PreRange
import proofs.«422021_j38525856645138_3_alg».proof.Proof.KernelValue
import proofs.«422021_j38525856645138_3_alg».proof.Proof.RefObj
import proofs.«422021_j38525856645138_3_alg».proof.Proof.RefFrame
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The kernel's table of region 0 and the reference's are one term. -/
theorem projObj_eq (x2 : FVec Ideal Cert.KernelIdeal.S16x768 .f32) (x5 : FVec Ideal Cert.KernelIdeal.S768x2048 .f32) (x6 : FVec Ideal Cert.KernelIdeal.S2048 .f32) :
    Cert.KernelIdeal.Val.projObjK (F := Ideal) x2 x5 x6 = Cert.ReferenceIdeal.Read.val_main_v3 (F := Ideal) x2 x5 x6 := rfl

/-- The kernel's table of region 1 and the reference's are one term. -/
theorem projFrame_eq (x2 : FVec Ideal Cert.KernelIdeal.S16x768 .f32) (x7 : FVec Ideal Cert.KernelIdeal.S768x768 .f32) (x8 : FVec Ideal Cert.KernelIdeal.S768 .f32) :
    Cert.KernelIdeal.Val.projFrameK (F := Ideal) x2 x7 x8 = Cert.ReferenceIdeal.Read.val_main_v38 (F := Ideal) x2 x7 x8 := rfl

/-- Both runs end, with the specification's two arrays of arguments that agree. -/
theorem algebraic : Cert.algebraic_KernelIdeal_ReferenceIdeal := by
  intro m ρ m' ρ' hpre hagree
  refine ⟨_, _, Cert.KernelIdeal.Val.kernel_run m ρ, ?_⟩
  refine (θ_run Cert.ReferenceIdeal.defs _ _).mono (fun _ h c => ?_) (Cert.ReferenceIdeal.Value.run (F := Ideal) m' ρ')
  obtain ⟨hent, hlab⟩ := Cert.Pre_finite_inputs.Range.ranges_of_pre _ _ _ _ _ _ _ _ _ _ (hpre c)
  obtain ⟨e0, e1, e2, e3, e4, e5, e6, e7, e8, e9⟩ := hagree c
  refine ⟨?_, ?_, (h c).2.2⟩
  · rw [(h c).1, Cert.ReferenceIdeal.Read.val_main_v20_eq, e0, e2, e3, e5, e6, e9,
      Cert.ReferenceIdeal.RefObj.ref_obj _ _ _ _ _ _ hent, ← projObj_eq]
  · rw [(h c).2.1, Cert.ReferenceIdeal.Read.val_main_v48_eq, e1, e2, e4, e7, e8, e9,
      Cert.ReferenceIdeal.RefFrame.ref_frame _ _ _ _ _ _ (fun i => by
        rw [Cert.ReferenceIdeal.Read.val_main_v21_apply]; exact hlab _), ← projFrame_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
